-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S4x128x128 : Shape := ⟨3, ![4, 128, 128]⟩
abbrev S4x128 : Shape := ⟨2, ![4, 128]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_v29 : IVec S_ 1) (main_v34 : IVec S800000 1) : IVec S_ 1 :=
  let main_c_11 : IVec S_ 1 := constantI S_ 1 1#1
  let main_v35 : IVec S_ 1 := (fun x v => Host.reduce IntOp.andi x v reducesTo_S800000_S_d0 h_S_) main_v34 main_c_11
  let main_v36 : IVec S_ 1 := andi main_v29 main_v35
  main_v36

def fn_part1 {F : FTy → Type} [FloatOps F] (main_arg1 : IVec S2x800000 32) (main_arg2 : IVec S800000 32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : IVec S1x800000 32 := (extractStridedSlice S1x800000 ![1, 0] · slices_S2x800000_S1x800000_1_0) main_arg1
  let main_v20 : IVec S800000 32 := shapeCast S800000 main_v19 shapeCasts_S1x800000_S800000
  let main_c_6 : IVec S_ 32 := constantI S_ 32 0#32
  let main_v21 : IVec S800000 32 := broadcastInDim S800000 ![] bcast_S_S800000 main_c_6
  let main_v22 : IVec S800000 1 := cmpi .sge main_v20 main_v21
  let main_v23 : IVec S1x800000 32 := (extractStridedSlice S1x800000 ![1, 0] · slices_S2x800000_S1x800000_1_0) main_arg1
  let main_v24 : IVec S800000 32 := shapeCast S800000 main_v23 shapeCasts_S1x800000_S800000
  let main_c_7 : IVec S_ 32 := constantI S_ 32 50000#32
  let main_v25 : IVec S800000 32 := broadcastInDim S800000 ![] bcast_S_S800000 main_c_7
  let main_v26 : IVec S800000 1 := cmpi .slt main_v24 main_v25
  let main_v27 : IVec S800000 1 := andi main_v22 main_v26
  let main_c_8 : IVec S_ 1 := constantI S_ 1 1#1
  let main_v28 : IVec S_ 1 := (fun x v => Host.reduce IntOp.andi x v reducesTo_S800000_S_d0 h_S_) main_v27 main_c_8
  let main_v29 : IVec S_ 1 := andi main_v18 main_v28
  let main_c_9 : IVec S_ 32 := constantI S_ 32 0#32
  let main_v30 : IVec S800000 32 := broadcastInDim S800000 ![] bcast_S_S800000 main_c_9
  let main_v31 : IVec S800000 1 := cmpi .sge main_arg2 main_v30
  let main_c_10 : IVec S_ 32 := constantI S_ 32 4#32
  let main_v32 : IVec S800000 32 := broadcastInDim S800000 ![] bcast_S_S800000 main_c_10
  let main_v33 : IVec S800000 1 := cmpi .slt main_arg2 main_v32
  let main_v34 : IVec S800000 1 := andi main_v31 main_v33
  fn_part2 (F := F) main_v29 main_v34

def fn {F : FTy → Type} [FloatOps F] (main_arg0 : FVec F S50000x128 .f32) (main_arg1 : IVec S2x800000 32) (main_arg2 : IVec S800000 32) (main_arg3 : FVec F S4x128x128 .f32) (main_arg4 : FVec F S4x128x128 .f32) (main_arg5 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg1 main_arg2 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S4x128x128 : Shape := ⟨3, ![4, 128, 128]⟩
abbrev S4x128 : Shape := ⟨2, ![4, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S200000x128 : Shape := ⟨2, ![200000, 128]⟩
abbrev S200000 : Shape := ⟨1, ![200000]⟩
abbrev S200000x1 : Shape := ⟨2, ![200000, 1]⟩
abbrev S50000x512 : Shape := ⟨2, ![50000, 512]⟩
abbrev S128x128 : Shape := ⟨2, ![128, 128]⟩
abbrev S512x128 : Shape := ⟨2, ![512, 128]⟩
abbrev S128 : Shape := ⟨1, ![128]⟩
abbrev S1x128 : Shape := ⟨2, ![1, 128]⟩
abbrev S50000x640 : Shape := ⟨2, ![50000, 640]⟩
abbrev S640x128 : Shape := ⟨2, ![640, 128]⟩
abbrev S2000x640 : Shape := ⟨2, ![2000, 640]⟩
abbrev S2000x128 : Shape := ⟨2, ![2000, 128]⟩

abbrev nBuf : Space → Nat
  | .hbm => 58
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S4x128x128, .f32⟩
  | .hbm, ⟨4, _⟩ => ⟨S4x128x128, .f32⟩
  | .hbm, ⟨5, _⟩ => ⟨S4x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S_, .f32⟩
  | .hbm, ⟨24, _⟩ => ⟨S200000x128, .f32⟩
  | .hbm, ⟨25, _⟩ => ⟨S800000x1, .i32⟩
  | .hbm, ⟨26, _⟩ => ⟨S200000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S200000, .f32⟩
  | .hbm, ⟨31, _⟩ => ⟨S800000x1, .i32⟩
  | .hbm, ⟨32, _⟩ => ⟨S200000, .f32⟩
  | .hbm, ⟨33, _⟩ => ⟨S_, .f32⟩
  | .hbm, ⟨34, _⟩ => ⟨S200000, .f32⟩
  | .hbm, ⟨35, _⟩ => ⟨S200000, .f32⟩
  | .hbm, ⟨36, _⟩ => ⟨S200000x1, .f32⟩
  | .hbm, ⟨37, _⟩ => ⟨S200000x128, .f32⟩
  | .hbm, ⟨38, _⟩ => ⟨S200000x128, .f32⟩
  | .hbm, ⟨39, _⟩ => ⟨S50000x512, .f32⟩
  | .hbm, ⟨40, _⟩ => ⟨S_, .f32⟩
  | .hbm, ⟨41, _⟩ => ⟨S128x128, .f32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S_, .f32⟩
  | .hbm, ⟨46, _⟩ => ⟨S4x128x128, .f32⟩
  | .hbm, ⟨47, _⟩ => ⟨S4x128x128, .f32⟩
  | .hbm, ⟨48, _⟩ => ⟨S512x128, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S50000x640, .f32⟩
  | .hbm, ⟨56, _⟩ => ⟨S640x128, .f32⟩
  | .hbm, ⟨57, _⟩ => ⟨S50000x128, .f32⟩
  | .local _ .vmem, ⟨0, _⟩ => ⟨S2000x640, .f32⟩
  | .local _ .vmem, ⟨1, _⟩ => ⟨S2000x640, .f32⟩
  | .local _ .vmem, ⟨2, _⟩ => ⟨S640x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  shapeCasts_S200000x128_S50000x512 : S200000x128.ShapeCasts S50000x512
  reducesTo_S4x128x128_S128x128_d0 : S4x128x128.ReducesTo [0] S128x128
  h_S_ : 0 < S_.numel
  bcast_S_S128x128 : S_.BroadcastsInDim S128x128 (![] : Fin 0 → Fin S128x128.rank)
  bcast_S_S4x128x128 : S_.BroadcastsInDim S4x128x128 (![] : Fin 0 → Fin S4x128x128.rank)
  shapeCasts_S4x128x128_S512x128 : S4x128x128.ShapeCasts S512x128
  reducesTo_S4x128_S128_d0 : S4x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  concatenates_S50000x128_S50000x512_S50000x640_d1 : Shape.Concatenates [S50000x128, S50000x512] S50000x640 1
  concatenates_S128x128_S512x128_S640x128_d0 : Shape.Concatenates [S128x128, S512x128] S640x128 0
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  bitsLt_bf16_f32 : FTy.bits .bf16 < FTy.bits .f32
  inb_S640x128_S640x128_0_0 : ∀ a, (![0, 0] : Fin 2 → Nat) a + S640x128.size a ≤ S640x128.size a
  h_S640x128 : 0 < S640x128.numel
  shapeCasts_S640x128_S640x128 : S640x128.ShapeCasts S640x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  scatter_S200000_S800000x1_S800000_n_0_0_1_wf : ScatterDims.WF S200000 S800000x1 S800000 [] [0] [0] 1
  dot_S2000x640_S640x128_S2000x128_1_0_0_1_n_n_wf : DotDims.WF S2000x640 S640x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x640.size a ≤ S50000x640.size a
  hwx0_0 : ∀ i : grid0.Coords, EltTy.bits .f32 = 32 ∨ (Rect.block (s := S50000x640) S2000x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x128.size a ≤ S640x128.size a
  hwx0_1 : ∀ i : grid0.Coords, EltTy.bits .f32 = 32 ∨ (Rect.block (s := S640x128) S640x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def dot_S2000x640_S640x128_S2000x128_1_0_0_1_n_n : DotDims S2000x640 S640x128 S2000x128 where
  lhsContracting := [1]
  rhsContracting := [0]
  lhsNonContracting := [0]
  rhsNonContracting := [1]
  lhsBatch := []
  rhsBatch := []
  wf := dot_S2000x640_S640x128_S2000x128_1_0_0_1_n_n_wf

abbrev win0_0 : Pipeline.Window sig grid0 :=
  Pipeline.Window.ofSpec (Memref.whole main_v37) S2000x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S640x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S4x128x128 : Shape := ⟨3, ![4, 128, 128]⟩
abbrev S4x128 : Shape := ⟨2, ![4, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x50000x128 : Shape := ⟨3, ![1, 50000, 128]⟩
abbrev S4x50000x128 : Shape := ⟨3, ![4, 50000, 128]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S4x128x128, .f32⟩
  | 4 => ⟨S4x128x128, .f32⟩
  | 5 => ⟨S4x128, .f32⟩
  | 6 => ⟨S1x800000, .i32⟩
  | 7 => ⟨S800000, .i32⟩
  | 8 => ⟨S1x800000, .i32⟩
  | 9 => ⟨S800000, .i32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .i32⟩
  | 20 => ⟨S800000, .i32⟩
  | 21 => ⟨S800000, .i1⟩
  | 22 => ⟨S800000, .f32⟩
  | 23 => ⟨S800000x1, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S50000x1, .f32⟩
  | 32 => ⟨S800000x1, .i32⟩
  | 33 => ⟨S50000x1, .f32⟩
  | 34 => ⟨S_, .f32⟩
  | 35 => ⟨S50000x1, .f32⟩
  | 36 => ⟨S50000x1, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S1x128x128, .f32⟩
  | 43 => ⟨S128x128, .f32⟩
  | 44 => ⟨S50000x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S800000, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S_, .f32⟩
  | 63 => ⟨S50000x1, .f32⟩
  | 64 => ⟨S800000x1, .i32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128x128, .f32⟩
  | 75 => ⟨S128x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S800000, .f32⟩
  | 87 => ⟨S800000x1, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S_, .f32⟩
  | 95 => ⟨S50000x1, .f32⟩
  | 96 => ⟨S800000x1, .i32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S1x128x128, .f32⟩
  | 104 => ⟨S128x128, .f32⟩
  | 105 => ⟨S50000x128, .f32⟩
  | 106 => ⟨S1x128x128, .f32⟩
  | 107 => ⟨S128x128, .f32⟩
  | 108 => ⟨S50000x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .i32⟩
  | 116 => ⟨S800000, .i32⟩
  | 117 => ⟨S800000, .i1⟩
  | 118 => ⟨S800000, .f32⟩
  | 119 => ⟨S800000x1, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S_, .f32⟩
  | 127 => ⟨S50000x1, .f32⟩
  | _ => ⟨S50000x128, .f32⟩

abbrev hbmTy0_1 (i : Nat) : BufTy := match i % 128 with
  | 0 => ⟨S800000x1, .i32⟩
  | 1 => ⟨S50000x1, .f32⟩
  | 2 => ⟨S_, .f32⟩
  | 3 => ⟨S50000x1, .f32⟩
  | 4 => ⟨S50000x1, .f32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S1x128x128, .f32⟩
  | 11 => ⟨S128x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S1x50000x128, .f32⟩
  | 20 => ⟨S1x50000x128, .f32⟩
  | 21 => ⟨S1x50000x128, .f32⟩
  | 22 => ⟨S1x50000x128, .f32⟩
  | 23 => ⟨S4x50000x128, .f32⟩
  | 24 => ⟨S_, .f32⟩
  | 25 => ⟨S50000x128, .f32⟩
  | 26 => ⟨S_, .f32⟩
  | 27 => ⟨S50000x128, .f32⟩
  | 28 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_8 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_9 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_10 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_c_12 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_13 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_14 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_15 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_16 : Ref sig .tc := ⟨.hbm, 152, rfl⟩
abbrev main_v128 : Ref sig .tc := ⟨.hbm, 153, rfl⟩
abbrev main_cst_17 : Ref sig .tc := ⟨.hbm, 154, rfl⟩
abbrev main_v129 : Ref sig .tc := ⟨.hbm, 155, rfl⟩
abbrev main_v130 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  reducesTo_S4x50000x128_S50000x128_d0 : S4x50000x128.ReducesTo [0] S50000x128
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KArgs.lean ====
/- The idealized kernel's argument arrays by coordinates: the names the kernel-side modules share.
   `X` node features, `MSG` the gathered source rows (the host's gather, written before the region), `DST` and `TYP`
   each edge's destination and type words, `WS` / `WN` the self and neighbour weights, `BB` the biases. -/
import proofs.«427738_j26104811225143_1_alg».proof.Proof.Gen.KernelIdeal.Frame
import Idealize.ShloMosaic.Lib.ValueIdx

noncomputable section

namespace Cert.KernelIdeal.KArgs

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- The argument arrays at their literal types. -/
abbrev a0 : FVec Ideal S50000x128 .f32 := m ((c : Thread nD τ).loc main_arg0)
abbrev a1 : IVec S2x800000 32 := m ((c : Thread nD τ).loc main_arg1)
abbrev a2 : IVec S800000 32 := m ((c : Thread nD τ).loc main_arg2)
abbrev a3 : FVec Ideal S4x128x128 .f32 := m ((c : Thread nD τ).loc main_arg3)
abbrev a4 : FVec Ideal S4x128x128 .f32 := m ((c : Thread nD τ).loc main_arg4)
abbrev a5 : FVec Ideal S4x128 .f32 := m ((c : Thread nD τ).loc main_arg5)
/-- The gathered source rows, as the region finds them. -/
abbrev gmsg : FVec Ideal S800000x128 .f32 := V m c main_v10

def X (n : Fin 50000) (k : Fin 128) : EReal := a0 m c (ix2 n k)
def MSG (e : Fin 800000) (k : Fin 128) : EReal := gmsg m c (ix2 e k)
def DST (e : Fin 800000) : BitVec 32 := a1 m c (ix2 (1 : Fin 2) e)
def TYP (e : Fin 800000) : BitVec 32 := a2 m c (ix1 e)
def WS (t : Fin 4) (k f : Fin 128) : EReal := a3 m c (ix3 t k f)
def WN (t : Fin 4) (k f : Fin 128) : EReal := a4 m c (ix3 t k f)
def BB (t : Fin 4) (f : Fin 128) : EReal := a5 m c (ix2 t f)

/-- The three arrays the region's input windows stage, as the region finds them. -/
abbrev cx : FVec Ideal S50000x640 .f32 := V m c main_v37
abbrev cw : FVec Ideal S640x128 .f32 := V m c main_v38
abbrev cb : FVec Ideal S1x128 .f32 := V m c main_v36

end Cert.KernelIdeal.KArgs

end
-- ==== Proof.KBlock.lean ====
/- What the region leaves in the result array: row n, column f is the 640-term product of row n of the joined
   features with column f of the joined weights, plus the bias row's column f. Each of the 25 grid points computes
   2000 rows of it (one matrix product into a zero accumulator, the bias row broadcast down the rows), and the 25
   row blocks tile the array. -/
import proofs.«427738_j26104811225143_1_alg».proof.Proof.KArgs
import proofs.«427738_j26104811225143_1_alg».proof.Proof.Gen.KernelIdeal.Value
import Idealize.ShloMosaic.Lib.Pipeline.Value
import Idealize.ShloMosaic.PureOps.Ideal.Laws
import Idealize.ShloMosaic.Lib.ValueLayout

noncomputable section

namespace Cert.KernelIdeal.KBlock

open Cert.KernelIdeal Cert.KernelIdeal.Gen Cert.KernelIdeal.KArgs Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-! ## The block product at an index -/

/-- The left operand's index at output (p, q) and contraction position k: row p ... -/
theorem lhs_mm_0 (i : S2000x128.Idx) (q : dot_S2000x640_S640x128_S2000x128_1_0_0_1_n_n.contr.Idx) :
    (dot_S2000x640_S640x128_S2000x128_1_0_0_1_n_n.lhsIdx i q 0).val = (i 0).val := by
  unfold DotDims.lhsIdx
  rw [dif_neg (show ¬(0 : Fin S2000x640.rank) ∈ dot_S2000x640_S640x128_S2000x128_1_0_0_1_n_n.lhsBatch by decide), dif_pos (show (0 : Fin S2000x640.rank) ∈ dot_S2000x640_S640x128_S2000x128_1_0_0_1_n_n.lhsNonContracting by decide)]
  rfl
/-- ... column k; -/
theorem lhs_mm_1 (i : S2000x128.Idx) (q : dot_S2000x640_S640x128_S2000x128_1_0_0_1_n_n.contr.Idx) :
    (dot_S2000x640_S640x128_S2000x128_1_0_0_1_n_n.lhsIdx i q 1).val = (q ⟨0, by decide⟩).val :=
  dot_S2000x640_S640x128_S2000x128_1_0_0_1_n_n.lhsIdx_val_of_single rfl i q
/-- the right operand's: row k ... -/
theorem rhs_mm_0 (i : S2000x128.Idx) (q : dot_S2000x640_S640x128_S2000x128_1_0_0_1_n_n.contr.Idx) :
    (dot_S2000x640_S640x128_S2000x128_1_0_0_1_n_n.rhsIdx i q 0).val = (q ⟨0, by decide⟩).val :=
  dot_S2000x640_S640x128_S2000x128_1_0_0_1_n_n.rhsIdx_val_of_single rfl i q
/-- ... column q. -/
theorem rhs_mm_1 (i : S2000x128.Idx) (q : dot_S2000x640_S640x128_S2000x128_1_0_0_1_n_n.contr.Idx) :
    (dot_S2000x640_S640x128_S2000x128_1_0_0_1_n_n.rhsIdx i q 1).val = (i 1).val := by
  unfold DotDims.rhsIdx
  rw [dif_neg (show ¬(1 : Fin S640x128.rank) ∈ dot_S2000x640_S640x128_S2000x128_1_0_0_1_n_n.rhsBatch by decide), dif_pos (show (1 : Fin S640x128.rank) ∈ dot_S2000x640_S640x128_S2000x128_1_0_0_1_n_n.rhsNonContracting by decide)]
  rfl

/-- One point's result at (p, q): the 640-term product of row p of the feature block with column q of the weights
    (the narrowing to bf16 is the identity on extended reals, the accumulator is zero), plus the bias row at q. -/
theorem pay_apply (x0 : Vec Ideal S2000x640 .f32) (x1 : Vec Ideal S640x128 .f32) (x2 : Vec Ideal S1x128 .f32)
    (p : Fin 2000) (q : Fin 128) :
    k0_pay1 x0 x1 x2 (ix2 p q) = (∑ j : Fin 640, x0 (ix2 p j) * x1 (ix2 j q)) + x2 (ix2 (0 : Fin 1) q) := by
  unfold k0_pay1
  simp only [shapeCast_self]
  rw [addf_apply, broadcastTo_1b_ab_apply]
  congr 1
  simp only [matmul]
  rw [Ideal.matmul_constant_zero_apply, ← Equiv.sum_comp (contrEquiv1 dot_S2000x640_S640x128_S2000x128_1_0_0_1_n_n 640 rfl rfl).symm]
  refine Finset.sum_congr rfl fun k _ => ?_
  have hk := contrEquiv1_symm_val dot_S2000x640_S640x128_S2000x128_1_0_0_1_n_n 640 rfl rfl k
  have el : dot_S2000x640_S640x128_S2000x128_1_0_0_1_n_n.lhsIdx (ix2 p q) ((contrEquiv1 dot_S2000x640_S640x128_S2000x128_1_0_0_1_n_n 640 rfl rfl).symm k) = ix2 p k := funext fun a => Fin.ext (by
    match a with
    | ⟨0, _⟩ => exact lhs_mm_0 _ _
    | ⟨1, _⟩ => exact (lhs_mm_1 _ _).trans hk)
  have er : dot_S2000x640_S640x128_S2000x128_1_0_0_1_n_n.rhsIdx (ix2 p q) ((contrEquiv1 dot_S2000x640_S640x128_S2000x128_1_0_0_1_n_n 640 rfl rfl).symm k) = ix2 k q := funext fun a => Fin.ext (by
    match a with
    | ⟨0, _⟩ => exact (rhs_mm_0 _ _).trans hk
    | ⟨1, _⟩ => exact rhs_mm_1 _ _)
  rw [truncf_apply, truncf_apply, el, er]

/-- The same at any index of the block. -/
theorem pay_at (x0 : Vec Ideal S2000x640 .f32) (x1 : Vec Ideal S640x128 .f32) (x2 : Vec Ideal S1x128 .f32) (y : S2000x128.Idx) :
    k0_pay1 x0 x1 x2 y = (∑ j : Fin 640, x0 (ix2 (y 0) j) * x1 (ix2 j (y 1))) + x2 (ix2 (0 : Fin 1) (y 1)) := by
  obtain ⟨p, q, rfl⟩ : ∃ (p : Fin 2000) (q : Fin 128), y = ix2 p q := ⟨y 0, y 1, eq_ix2 y⟩
  exact pay_apply x0 x1 x2 p q

/-! ## From the 25 row blocks to the array -/

/-- The value the array ends holding at row n, column f. -/
def rowval (n : Fin 50000) (f : Fin 128) : EReal :=
  (∑ j : Fin 640, cx m c (ix2 n j) * cw m c (ix2 j f)) + cb m c (ix2 (0 : Fin 1) f)

/-- The whole array as one function of the index. -/
def Gfun : FVec Ideal S50000x128 .f32 := fun i => rowval m c (i 0) (i 1)

theorem hz : (![0, 0] : Fin 2 → Nat) = fun _ => 0 := funext fun a => by fin_cases a <;> rfl

/-- The index maps over the grid: the feature and result windows sit at row block t, column block 0; the weight
    and bias windows are whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point t is rows 2000 t … 2000 t + 1999 of the feature array. -/
theorem iblk0_apply (t : Fin cfg0.N) (x : S2000x640.Idx) (k : S50000x640.Idx)
    (hk0 : (k 0).val = 2000 * t.val + (x 0).val) (hk1 : (k 1).val = (x 1).val) :
    (iblk m c 0 t : Vec Ideal S2000x640 .f32) x = cx m c k := by
  obtain ⟨e0, e1, -⟩ := idx_facts t
  unfold iblk
  rw [View.read_apply]
  show V m c main_v37 _ = V m c main_v37 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 640 + 1 * (x 1).val = (k 1).val; rw [e1, hk1]; omega

/-- The weight window's block is the whole weight array at every point. -/
theorem iblk1_apply (t : Fin cfg0.N) (x : S640x128.Idx) :
    (iblk m c 1 t : Vec Ideal S640x128 .f32) x = cw m c x := by
  obtain ⟨-, -, e0, e1, -⟩ := idx_facts t
  unfold iblk
  rw [View.read_apply]
  show V m c main_v38 _ = V m c main_v38 _
  congr 1
  funext a
  apply Fin.ext
  match a with
  | ⟨0, _⟩ => show win0_1.index t (0 : Fin 2) * 640 + 1 * (x 0).val = (x 0).val; rw [e0]; omega
  | ⟨1, _⟩ => show win0_1.index t (1 : Fin 2) * 128 + 1 * (x 1).val = (x 1).val; rw [e1]; omega

/-- The bias window's block is the whole bias row at every point. -/
theorem iblk2_apply (t : Fin cfg0.N) (x : S1x128.Idx) :
    (iblk m c 2 t : Vec Ideal S1x128 .f32) x = cb m c x := by
  obtain ⟨-, -, -, -, e0, e1, -⟩ := idx_facts t
  unfold iblk
  rw [View.read_apply]
  show V m c main_v36 _ = V m c main_v36 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- What point t writes back is block t of the whole-array function. -/
theorem flushed_eq (t : Fin cfg0.N) :
    (dats m 0 c).flushed 3 t = ((cfg0.win 3).blk t).view.read (Elt Ideal) (Gfun m c) := by
  rw [Cert.KernelIdeal.Value.flushed3]
  unfold out0_3
  rw [View.canon_unit_zero hz]
  simp only [View.ld_unit_zero (S := S2000x640) hz, View.ld_unit_zero (S := S640x128) hz, View.ld_unit_zero (S := S1x128) hz]
  obtain ⟨-, -, -, -, -, -, e0, e1⟩ := idx_facts t
  funext y
  show k0_pay1 (iblk m c 0 t) (iblk m c 1 t) (iblk m c 2 t) y = Gfun m c (((cfg0.win 3).blk t).view.emb y)
  refine (pay_at _ _ _ y).trans ?_
  have r0 : ((((cfg0.win 3).blk t).view.emb y) 0).val = 2000 * t.val + (y 0).val := by
    show win0_3.index t (0 : Fin 2) * 2000 + 1 * (y 0).val = _; rw [e0]; omega
  have r1 : ((((cfg0.win 3).blk t).view.emb y) 1).val = (y 1).val := by
    show win0_3.index t (1 : Fin 2) * 128 + 1 * (y 1).val = _; rw [e1]; omega
  have q1 : (((cfg0.win 3).blk t).view.emb y) 1 = y 1 := Fin.ext r1
  unfold Gfun rowval
  refine congrArg₂ (· + ·) (Finset.sum_congr rfl fun j _ => congrArg₂ (· * ·) ?_ ?_) ?_
  · exact iblk0_apply m c t _ _ r0 rfl
  · rw [iblk1_apply, q1]
  · rw [iblk2_apply, q1]

/-- An index of the array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v39).slice (win0_3.rect t)).set ↔ _
  rw [View.set_slice_whole, Rect.mem_set_unit]
  exact Iff.rfl

/-- Row n is in the block of point n / 2000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 2000, by show _ < 25; omega⟩, flush0_3 _, ?_⟩
  rw [mem_blk]
  obtain ⟨-, -, -, -, -, -, e0, e1⟩ := idx_facts ⟨(i 0).val / 2000, by show _ < 25; omega⟩
  intro a
  match a with
  | ⟨0, _⟩ => show win0_3.index _ (0 : Fin 2) * 2000 ≤ (i 0).val ∧ (i 0).val < win0_3.index _ (0 : Fin 2) * 2000 + 2000; rw [e0]; show (i 0).val / 2000 * 2000 ≤ _ ∧ _ < (i 0).val / 2000 * 2000 + 2000; omega
  | ⟨1, _⟩ => show win0_3.index _ (1 : Fin 2) * 128 ≤ (i 1).val ∧ (i 1).val < win0_3.index _ (1 : Fin 2) * 128 + 128; rw [e1]; omega

/-- The result array after the region is the whole-array function. -/
theorem final : (dats m 0 c).arrAt 3 cfg0.N = Gfun m c :=
  (dats m 0 c).arrAt_eq_of_cover 3 (Gfun m c) (fun t _ => flushed_eq m c t) (cover)

/-- The result array after the region, element by element. -/
theorem final_mm (n : Fin 50000) (f : Fin 128) :
    (dats m 0 c).arrAt 3 cfg0.N (ix2 n f)
      = (∑ j : Fin 640, cx m c (ix2 n j) * cw m c (ix2 j f)) + cb m c (ix2 (0 : Fin 1) f) := by
  rw [final]
  rfl

end Cert.KernelIdeal.KBlock

end
-- ==== Proof.Spec.lean ====
/- The mathematics of the two programs, over plain coordinate functions and with no program imported.

   A graph layer with four edge types: every edge `e` carries a message row `msg e` (the source node's features), a
   destination node `dst e` and a type `typ e`. For node `n` and type `t` the layer averages the messages of the edges
   into `n` of type `t` (dividing by the larger of the edge count and 1), multiplies the node's own features by `Ws t`
   and the average by `Wn t`, adds the bias `b t`, and averages the four results.

   `refOut` is that, literally: a type is selected by a 0/1 weight on every edge into the node.
   `kerOut` buckets the edges once by the composite number `4 * dst + typ`, and folds the outer average into the
   weights: one product with the type-averaged `Ws`, four products with `Wn t / 4`, and the type-averaged bias.
   `kerOut_eq_refOut`: they agree when every number is finite and every `dst`, `typ` lies in its range. -/
import Idealize.ShloMosaic.PureOps.Ideal
import Idealize.ShloMosaic.Lib.ValueIdx

noncomputable section

namespace Cert.Spec

open Idealize.ShloMosaic

/-! ## The kernel's arrangement -/

/-- The edges whose composite bucket number `4 * dst + typ`, computed in 32-bit words and read signed, is `r`. -/
def bucketK (dst typ : Fin 800000 → BitVec 32) (r : Fin 200000) : Finset (Fin 800000) :=
  Finset.univ.filter fun e => (dst e * 4#32 + typ e).toInt = (r.val : Int)

/-- Column `k` of the sum of the messages in bucket `r`. -/
def segK (msg : Fin 800000 → Fin 128 → EReal) (dst typ : Fin 800000 → BitVec 32) (r : Fin 200000) (k : Fin 128) : EReal :=
  ∑ e ∈ bucketK dst typ r, msg e k

/-- The number of edges in bucket `r`. -/
def cntK (dst typ : Fin 800000 → BitVec 32) (r : Fin 200000) : EReal :=
  ∑ _e ∈ bucketK dst typ r, (1 : EReal)

/-- The bucket's mean message: its sum over the larger of its count and 1. -/
def meanK (msg : Fin 800000 → Fin 128 → EReal) (dst typ : Fin 800000 → BitVec 32) (r : Fin 200000) (k : Fin 128) : EReal :=
  Ideal.div (segK msg dst typ r k) (max (cntK dst typ r) 1)

/-- Bucket `4 * n + t`: node `n`, type `t`. -/
def bkt (n : Fin 50000) (t : Fin 4) : Fin 200000 := ⟨4 * n.val + t.val, by omega⟩

/-- The kernel's result at node `n`, feature `f`. -/
def kerOut (x : Fin 50000 → Fin 128 → EReal) (msg : Fin 800000 → Fin 128 → EReal) (dst typ : Fin 800000 → BitVec 32)
    (Ws Wn : Fin 4 → Fin 128 → Fin 128 → EReal) (b : Fin 4 → Fin 128 → EReal) (n : Fin 50000) (f : Fin 128) : EReal :=
  ((∑ k : Fin 128, x n k * Ideal.div (∑ t : Fin 4, Ws t k f) ((4 : ℝ) : EReal))
    + ∑ t : Fin 4, ∑ k : Fin 128, meanK msg dst typ (bkt n t) k * (Wn t k f * ((1 / 4 : ℝ) : EReal)))
  + Ideal.div (∑ t : Fin 4, b t f) ((4 : ℝ) : EReal)

/-! ## The reference's arrangement -/

/-- The edges whose destination word, read signed, is node `n`. -/
def bucketR (dst : Fin 800000 → BitVec 32) (n : Fin 50000) : Finset (Fin 800000) :=
  Finset.univ.filter fun e => (dst e).toInt = (n.val : Int)

/-- The 0/1 weight of edge `e` for type `t`. -/
def wR (typ : Fin 800000 → BitVec 32) (t : Fin 4) (e : Fin 800000) : EReal :=
  if typ e = BitVec.ofNat 32 t.val then 1 else 0

/-- Column `k` of the sum of the type-`t` messages into node `n`. -/
def segR (msg : Fin 800000 → Fin 128 → EReal) (dst typ : Fin 800000 → BitVec 32) (t : Fin 4) (n : Fin 50000) (k : Fin 128) : EReal :=
  ∑ e ∈ bucketR dst n, msg e k * wR typ t e

/-- The number of type-`t` edges into node `n`. -/
def cntR (dst typ : Fin 800000 → BitVec 32) (t : Fin 4) (n : Fin 50000) : EReal :=
  ∑ e ∈ bucketR dst n, wR typ t e

/-- The mean type-`t` message into node `n`. -/
def meanR (msg : Fin 800000 → Fin 128 → EReal) (dst typ : Fin 800000 → BitVec 32) (t : Fin 4) (n : Fin 50000) (k : Fin 128) : EReal :=
  Ideal.div (segR msg dst typ t n k) (max (cntR dst typ t n) 1)

/-- One type's layer output at node `n`, feature `f`. -/
def layerR (x : Fin 50000 → Fin 128 → EReal) (msg : Fin 800000 → Fin 128 → EReal) (dst typ : Fin 800000 → BitVec 32)
    (Ws Wn : Fin 4 → Fin 128 → Fin 128 → EReal) (b : Fin 4 → Fin 128 → EReal) (t : Fin 4) (n : Fin 50000) (f : Fin 128) : EReal :=
  ((∑ k : Fin 128, x n k * Ws t k f) + ∑ k : Fin 128, meanR msg dst typ t n k * Wn t k f) + b t f

/-- The reference's result at node `n`, feature `f`: the four types' outputs averaged. -/
def refOut (x : Fin 50000 → Fin 128 → EReal) (msg : Fin 800000 → Fin 128 → EReal) (dst typ : Fin 800000 → BitVec 32)
    (Ws Wn : Fin 4 → Fin 128 → Fin 128 → EReal) (b : Fin 4 → Fin 128 → EReal) (n : Fin 50000) (f : Fin 128) : EReal :=
  Ideal.div (∑ t : Fin 4, layerR x msg dst typ Ws Wn b t n f) ((4 : ℝ) : EReal)

end Cert.Spec

end
-- ==== Proof.Consts.lean ====
/- The float constants the two programs spell, as the extended reals their words denote: 1, 4 and 1/4
   (the zero word is the library's `Ideal.ofBits_zero_f32`). Stated once here so that no other module unfolds
   the decoding of a word. -/
import Idealize.ShloMosaic.PureOps.Ideal
import Idealize.ShloMosaic.PureOps.Ideal.Laws

noncomputable section

namespace Cert.Consts

open Idealize.ShloMosaic

/-- The word of `1.0` denotes the real 1 (the floor of a bucket's edge count before the division). -/
theorem ofBits_one : Ideal.ofBits .f32 0x3F800000#32 = (1 : EReal) := by
  simp [Ideal.ofBits, Ideal.ieee, -EReal.coe_mul]; norm_num

/-- The word of `4.0` denotes the real 4 (the number of edge types both programs average over). -/
theorem ofBits_four : Ideal.ofBits .f32 0x40800000#32 = ((4 : ℝ) : EReal) := by
  simp [Ideal.ofBits, Ideal.ieee, -EReal.coe_mul]; norm_num

/-- The word of `0.25` denotes the real 1/4 (the kernel's weight scale, the reciprocal of the same 4). -/
theorem ofBits_quarter : Ideal.ofBits .f32 0x3E800000#32 = ((1 / 4 : ℝ) : EReal) := by
  simp [Ideal.ofBits, Ideal.ieee, -EReal.coe_mul]; norm_num

end Cert.Consts

end
-- ==== Proof.LibScatterRead.lean ====
/- An accumulating host scatter read at one element (extended reals, exact sums).

   `stablehlo.scatter` with an `add` body whose start indices are an [E, 1] column of words — what a
   segment sum (`jax.ops.segment_sum`, `.at[ids].add`) lowers to — adds update row `e` into operand row `idx[e]`.
   Read at row `r`: the operand's element plus the sum of the update elements of the rows `e` whose start word,
   read signed, is `r`; a start outside the operand meets no row and is dropped. Two layouts: rows of width `C`
   ([R, C] operand, [E, C] updates; width 1 gives the column form), and scalars ([R] operand, [E] updates). -/
import Idealize.ShloMosaic.PureOps.Ideal
import Idealize.ShloMosaic.Lib.ValueIdx

noncomputable section

namespace Cert.ScatterRead

open Idealize.ShloMosaic Idealize.ShloMosaic.ValueIdx

/-! ## Rows -/

/-- The row layout's dimension numbers: window axis 1 of the updates, operand axis 0 inserted and scattered. -/
private abbrev rowsDims {R C E : Nat} (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ :=
  { updateWindowDims := [1], insertedWindowDims := [0], scatterDimsToOperandDims := [0], indexVectorDim := 1, wf := wf }

/-- The start-index position an update index reads: its row, on the index vector's only component. -/
private theorem rows_siIdx {R C E : Nat} (wf : ScatterDims.WF ⟨2, ![R, C]⟩ ⟨2, ![E, 1]⟩ ⟨2, ![E, C]⟩ [1] [0] [0] 1)
    (e : Fin E) (k' : Fin C) :
    (rowsDims wf).siIdx (ix2 e k') ⟨0, Nat.zero_lt_one⟩ = ix2 e 0 := by
  funext b; match b with | ⟨0, _⟩ => rfl | ⟨1, _⟩ => rfl

/-- The window start on the operand's row axis: that word, read signed. -/
private theorem rows_start0 {R C E w : Nat} (wf : ScatterDims.WF ⟨2, ![R, C]⟩ ⟨2, ![E, 1]⟩ ⟨2, ![E, C]⟩ [1] [0] [0] 1)
    (idx : IVec ⟨2, ![E, 1]⟩ w) (e : Fin E) (k' : Fin C) :
    (rowsDims wf).start (ix2 e k') idx 0 = (idx (ix2 e 0)).toInt := by
  rw [← rows_siIdx wf e k']; rfl

/-- Update element (e, k') lands on operand element (r, k) exactly when row e's start word, read signed, is r and k' = k. -/
private theorem rows_resultIdx_iff {R C E w : Nat} (wf : ScatterDims.WF ⟨2, ![R, C]⟩ ⟨2, ![E, 1]⟩ ⟨2, ![E, C]⟩ [1] [0] [0] 1)
    (idx : IVec ⟨2, ![E, 1]⟩ w) (e : Fin E) (k' : Fin C) (r : Fin R) (k : Fin C) :
    (rowsDims wf).resultIdx? (ix2 e k') idx = some (ix2 r k) ↔ (idx (ix2 e 0)).toInt = (r.val : Int) ∧ k' = k := by
  have s0 := rows_start0 wf idx e k'
  have w0 : (rowsDims wf).window (ix2 e k') 0 = 0 := rfl
  have s1 : (rowsDims wf).start (ix2 e k') idx 1 = 0 := rfl
  have w1 : (rowsDims wf).window (ix2 e k') 1 = k'.val := rfl
  unfold ScatterDims.resultIdx?
  split
  · rename_i h
    have h0 := h 0
    rw [s0, w0] at h0
    constructor
    · intro hh
      have hh := Option.some.inj hh
      have e0 := congrArg Fin.val (congrFun hh 0)
      have e1 := congrArg Fin.val (congrFun hh 1)
      change ((rowsDims wf).start (ix2 e k') idx 0 + ((rowsDims wf).window (ix2 e k') 0 : Nat)).toNat = r.val at e0
      change ((rowsDims wf).start (ix2 e k') idx 1 + ((rowsDims wf).window (ix2 e k') 1 : Nat)).toNat = k.val at e1
      rw [s0, w0] at e0
      rw [s1, w1] at e1
      exact ⟨by omega, Fin.ext (by omega)⟩
    · rintro ⟨hr, hk⟩
      congr 1
      funext a
      match a with
      | ⟨0, _⟩ =>
        apply Fin.ext
        change ((rowsDims wf).start (ix2 e k') idx 0 + ((rowsDims wf).window (ix2 e k') 0 : Nat)).toNat = r.val
        rw [s0, w0]; omega
      | ⟨1, _⟩ =>
        apply Fin.ext
        change ((rowsDims wf).start (ix2 e k') idx 1 + ((rowsDims wf).window (ix2 e k') 1 : Nat)).toNat = k.val
        rw [s1, w1, hk]; omega
  · rename_i h
    constructor
    · intro hh; exact absurd hh (by simp)
    · rintro ⟨hr, hk⟩
      exfalso; apply h
      intro a
      match a with
      | ⟨0, _⟩ =>
        change 0 ≤ (rowsDims wf).start (ix2 e k') idx 0 + ((rowsDims wf).window (ix2 e k') 0 : Nat) ∧
          (rowsDims wf).start (ix2 e k') idx 0 + ((rowsDims wf).window (ix2 e k') 0 : Nat) < (R : Int)
        rw [s0, w0]; have := r.isLt; omega
      | ⟨1, _⟩ =>
        change 0 ≤ (rowsDims wf).start (ix2 e k') idx 1 + ((rowsDims wf).window (ix2 e k') 1 : Nat) ∧
          (rowsDims wf).start (ix2 e k') idx 1 + ((rowsDims wf).window (ix2 e k') 1 : Nat) < (C : Int)
        rw [s1, w1]; have := k'.isLt; omega

/-- Rows: operand [R, C], start indices [E, 1], updates [E, C]; update row `e` lands on operand row `idx[e, 0]`. -/
theorem scatterAdd_rows_apply {R C E w : Nat}
    (wf : ScatterDims.WF ⟨2, ![R, C]⟩ ⟨2, ![E, 1]⟩ ⟨2, ![E, C]⟩ [1] [0] [0] 1)
    (x : (⟨2, ![R, C]⟩ : Shape).Idx → EReal) (idx : IVec ⟨2, ![E, 1]⟩ w) (upd : (⟨2, ![E, C]⟩ : Shape).Idx → EReal)
    (r : Fin R) (k : Fin C) :
    Ideal.hostScatterAdd
        ({ updateWindowDims := [1], insertedWindowDims := [0], scatterDimsToOperandDims := [0], indexVectorDim := 1, wf := wf } :
          ScatterDims ⟨2, ![R, C]⟩ ⟨2, ![E, 1]⟩ ⟨2, ![E, C]⟩) x idx upd (ix2 r k)
      = x (ix2 r k) + ∑ e ∈ Finset.univ.filter (fun e : Fin E => (idx (ix2 e 0)).toInt = (r.val : Int)), upd (ix2 e k) := by
  change x (ix2 r k) + ∑ j ∈ Finset.univ.filter (fun j => (rowsDims wf).resultIdx? j idx = some (ix2 r k)), upd j = _
  congr 1
  rw [Finset.sum_filter, sum_idx2, Finset.sum_filter]
  refine Finset.sum_congr rfl fun e _ => ?_
  simp only [rows_resultIdx_iff]
  by_cases hr : (idx (ix2 e 0)).toInt = (r.val : Int)
  · simp only [hr, true_and, if_true]
    exact (Finset.sum_ite_eq' Finset.univ k fun b => upd (ix2 e b)).trans (if_pos (Finset.mem_univ k))
  · simp only [hr, false_and, if_false, Finset.sum_const_zero]

/-! ## Scalars -/

/-- The scalar layout's dimension numbers: no window axis, operand axis 0 inserted and scattered. -/
private abbrev vecDims {R E : Nat} (wf : ScatterDims.WF ⟨1, ![R]⟩ ⟨2, ![E, 1]⟩ ⟨1, ![E]⟩ [] [0] [0] 1) :
    ScatterDims ⟨1, ![R]⟩ ⟨2, ![E, 1]⟩ ⟨1, ![E]⟩ :=
  { updateWindowDims := [], insertedWindowDims := [0], scatterDimsToOperandDims := [0], indexVectorDim := 1, wf := wf }

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The start-index position a scalar update reads: its own position, on the index vector's only component. -/
private theorem vec_siIdx {R E : Nat} (wf : ScatterDims.WF ⟨1, ![R]⟩ ⟨2, ![E, 1]⟩ ⟨1, ![E]⟩ [] [0] [0] 1) (e : Fin E) :
    (vecDims wf).siIdx (ix1 e) ⟨0, Nat.zero_lt_one⟩ = ix2 e 0 := by
  funext b; match b with | ⟨0, _⟩ => rfl | ⟨1, _⟩ => rfl

/-- The window start on the operand's axis: that word, read signed. -/
private theorem vec_start0 {R E w : Nat} (wf : ScatterDims.WF ⟨1, ![R]⟩ ⟨2, ![E, 1]⟩ ⟨1, ![E]⟩ [] [0] [0] 1)
    (idx : IVec ⟨2, ![E, 1]⟩ w) (e : Fin E) :
    (vecDims wf).start (ix1 e) idx 0 = (idx (ix2 e 0)).toInt := by
  rw [← vec_siIdx wf e]; rfl

/-- Update element e lands on operand element r exactly when its start word, read signed, is r. -/
private theorem vec_resultIdx_iff {R E w : Nat} (wf : ScatterDims.WF ⟨1, ![R]⟩ ⟨2, ![E, 1]⟩ ⟨1, ![E]⟩ [] [0] [0] 1)
    (idx : IVec ⟨2, ![E, 1]⟩ w) (e : Fin E) (r : Fin R) :
    (vecDims wf).resultIdx? (ix1 e) idx = some (ix1 r) ↔ (idx (ix2 e 0)).toInt = (r.val : Int) := by
  have s0 := vec_start0 wf idx e
  have w0 : (vecDims wf).window (ix1 e) 0 = 0 := rfl
  unfold ScatterDims.resultIdx?
  split
  · rename_i h
    have h0 := h 0
    rw [s0, w0] at h0
    constructor
    · intro hh
      have hh := Option.some.inj hh
      have e0 := congrArg Fin.val (congrFun hh 0)
      change ((vecDims wf).start (ix1 e) idx 0 + ((vecDims wf).window (ix1 e) 0 : Nat)).toNat = r.val at e0
      rw [s0, w0] at e0
      omega
    · intro hr
      congr 1
      funext a
      match a with
      | ⟨0, _⟩ =>
        apply Fin.ext
        change ((vecDims wf).start (ix1 e) idx 0 + ((vecDims wf).window (ix1 e) 0 : Nat)).toNat = r.val
        rw [s0, w0]; omega
  · rename_i h
    constructor
    · intro hh; exact absurd hh (by simp)
    · intro hr
      exfalso; apply h
      intro a
      match a with
      | ⟨0, _⟩ =>
        change 0 ≤ (vecDims wf).start (ix1 e) idx 0 + ((vecDims wf).window (ix1 e) 0 : Nat) ∧
          (vecDims wf).start (ix1 e) idx 0 + ((vecDims wf).window (ix1 e) 0 : Nat) < (R : Int)
        rw [s0, w0]; have := r.isLt; omega

/-- Scalars: operand [R], start indices [E, 1], updates [E]; update `e` lands on operand element `idx[e, 0]`. -/
theorem scatterAdd_vec_apply {R E w : Nat}
    (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ w) (upd : (⟨1, ![E]⟩ : Shape).Idx → EReal)
    (r : Fin R) :
    Ideal.hostScatterAdd
        ({ updateWindowDims := [], insertedWindowDims := [0], scatterDimsToOperandDims := [0], indexVectorDim := 1, wf := wf } :
          ScatterDims ⟨1, ![R]⟩ ⟨2, ![E, 1]⟩ ⟨1, ![E]⟩) x idx upd (ix1 r)
      = x (ix1 r) + ∑ e ∈ Finset.univ.filter (fun e : Fin E => (idx (ix2 e 0)).toInt = (r.val : Int)), upd (ix1 e) := by
  change x (ix1 r) + ∑ j ∈ Finset.univ.filter (fun j => (vecDims wf).resultIdx? j idx = some (ix1 r)), upd j = _
  congr 1
  rw [Finset.sum_filter, sum_idx1, Finset.sum_filter]
  refine Finset.sum_congr rfl fun e _ => ?_
  simp only [vec_resultIdx_iff]

end Cert.ScatterRead

end
-- ==== Proof.KHostX.lean ====
/- The joined feature array the kernel's host code builds before the region ([50000, 640]), read at an element:
   columns 0–127 are the node's own features; columns 128 + 128 t + k are column k of the mean message of bucket
   4 n + t (the bucketed sums divided by the floored counts, re-laid from [200000, 128] to [50000, 512]). -/
import proofs.«427738_j26104811225143_1_alg».proof.Proof.KArgs
import proofs.«427738_j26104811225143_1_alg».proof.Proof.Spec
import proofs.«427738_j26104811225143_1_alg».proof.Proof.Consts
import proofs.«427738_j26104811225143_1_alg».proof.Proof.LibScatterRead
import Idealize.ShloMosaic.Lib.StableHlo.Run
import Idealize.ShloMosaic.Lib.Pipeline.Value

noncomputable section

namespace Cert.KernelIdeal.KHostX

open Cert.KernelIdeal Cert.KernelIdeal.Gen Cert.KernelIdeal.KArgs Idealize.ShloMosaic Idealize.ShloMosaic.TcCoe Idealize.SL.Sem Idealize.ShloMosaic.ValueIdx

/-! ## The host chain as a term of the arguments -/

section Chain
variable (A0 : FVec Ideal S50000x128 .f32) (A1 : IVec S2x800000 32) (A2 : IVec S800000 32) (G : FVec Ideal S800000x128 .f32)

/-- The gathered source rows as a term of the arguments (never opened). -/
private def gat : FVec Ideal S800000x128 .f32 :=
  Host.gather gather_S50000x128_S800000x1_S800000x128_1_0_n_n_0_1_1128 A0
    (broadcastInDim S800000x1 ![0] bcast_S800000_S800000x1_0
      (select (cmpi .slt (shapeCast S800000 (extractStridedSlice S1x800000 ![0, 0] A1 slices_S2x800000_S1x800000_0_0) shapeCasts_S1x800000_S800000)
                (broadcastInDim S800000 ![] bcast_S_S800000 (constantI S_ 32 0#32)))
        (addi (shapeCast S800000 (extractStridedSlice S1x800000 ![0, 0] A1 slices_S2x800000_S1x800000_0_0) shapeCasts_S1x800000_S800000)
                (broadcastInDim S800000 ![] bcast_S_S800000 (constantI S_ 32 50000#32)))
        (shapeCast S800000 (extractStridedSlice S1x800000 ![0, 0] A1 slices_S2x800000_S1x800000_0_0) shapeCasts_S1x800000_S800000)))

/-- The destination words: row 1 of the edge table, flattened. -/
private def dstW : IVec S800000 32 :=
  shapeCast S800000 (extractStridedSlice S1x800000 ![1, 0] A1 slices_S2x800000_S1x800000_1_0) shapeCasts_S1x800000_S800000
/-- The bucket words 4 · dst + typ. -/
private def bucketW : IVec S800000 32 :=
  addi (muli (dstW A1) (broadcastInDim S800000 ![] bcast_S_S800000 (constantI S_ 32 4#32))) A2
/-- The bucket words as a one-column table. -/
private def bucketCol : IVec S800000x1 32 := broadcastInDim S800000x1 ![0] bcast_S800000_S800000x1_0 (bucketW A1 A2)
/-- The bucketed sums of the message rows. -/
private def sums : FVec Ideal S200000x128 .f32 :=
  Host.scatterAdd scatter_S200000x128_S800000x1_S800000x128_1_0_0_1
    (broadcastInDim S200000x128 ![] bcast_S_S200000x128 (constant (F := Ideal) S_ .f32 0x00000000#32)) (bucketCol A1 A2) G
/-- The bucket sizes. -/
private def counts : FVec Ideal S200000 .f32 :=
  Host.scatterAdd scatter_S200000_S800000x1_S800000_n_0_0_1
    (broadcastInDim S200000 ![] bcast_S_S200000 (constant (F := Ideal) S_ .f32 0x00000000#32)) (bucketCol A1 A2)
    (broadcastInDim S800000 ![] bcast_S_S800000 (constant (F := Ideal) S_ .f32 0x3F800000#32))
/-- The sizes floored at 1. -/
private def floorC : FVec Ideal S200000 .f32 :=
  maximumf (counts A1 A2) (broadcastInDim S200000 ![] bcast_S_S200000 (constant (F := Ideal) S_ .f32 0x3F800000#32))
/-- The floored sizes along every row. -/
private def floorB : FVec Ideal S200000x128 .f32 :=
  broadcastInDim S200000x128 ![0, 1] bcast_S200000x1_S200000x128_0_1
    (broadcastInDim S200000x1 ![0] bcast_S200000_S200000x1_0 (floorC A1 A2))
/-- The bucket means. -/
private def means : FVec Ideal S200000x128 .f32 := Host.divf (sums A1 A2 G) (floorB A1 A2)
/-- The means re-laid four buckets to a row. -/
private def means4 : FVec Ideal S50000x512 .f32 := shapeCast S50000x512 (means A1 A2 G) shapeCasts_S200000x128_S50000x512
/-- The joined array. -/
private def joined : FVec Ideal S50000x640 .f32 :=
  concatenate S50000x640 1 [⟨S50000x128, A0⟩, ⟨S50000x512, means4 A1 A2 G⟩] concatenates_S50000x128_S50000x512_S50000x640_d1

end Chain

/-! ## The operations of the chain at an element, over any operands -/

section Ops

/-- The host quotient at an element is the ideal division of the elements. -/
private theorem hostDivf_apply {s : Shape} (a b : FVec Ideal s .f32) (i : s.Idx) : Host.divf a b i = Ideal.div (a i) (b i) := rfl

/-- The program's row scatter at an element: the operand's element plus the update elements of the rows whose start word is the row. -/
private theorem scatterRows_apply (x : S200000x128.Idx → EReal) (idx : IVec S800000x1 32) (upd : S800000x128.Idx → EReal)
    (r : Fin 200000) (k : Fin 128) :
    Host.scatterAdd (F := Ideal) (φ := .f32) scatter_S200000x128_S800000x1_S800000x128_1_0_0_1 x idx upd (ix2 r k)
      = x (ix2 r k) + ∑ e ∈ Finset.univ.filter (fun e : Fin 800000 => (idx (ix2 e 0)).toInt = (r.val : Int)), upd (ix2 e k) :=
  Cert.ScatterRead.scatterAdd_rows_apply scatter_S200000x128_S800000x1_S800000x128_1_0_0_1_wf x idx upd r k

/-- The program's scalar scatter at an element. -/
private theorem scatterVec_apply (x : S200000.Idx → EReal) (idx : IVec S800000x1 32) (upd : S800000.Idx → EReal) (r : Fin 200000) :
    Host.scatterAdd (F := Ideal) (φ := .f32) scatter_S200000_S800000x1_S800000_n_0_0_1 x idx upd (ix1 r)
      = x (ix1 r) + ∑ e ∈ Finset.univ.filter (fun e : Fin 800000 => (idx (ix2 e 0)).toInt = (r.val : Int)), upd (ix1 e) :=
  Cert.ScatterRead.scatterAdd_vec_apply scatter_S200000_S800000x1_S800000_n_0_0_1_wf x idx upd r

end Ops

/-! ## The chain read at an element -/

section Read
variable (A0 : FVec Ideal S50000x128 .f32) (A1 : IVec S2x800000 32) (A2 : IVec S800000 32) (G : FVec Ideal S800000x128 .f32)

/-- A destination word is the edge table's row 1 at the edge. -/
private theorem dstW_apply (e : Fin 800000) : dstW A1 (ix1 e) = A1 (ix2 (1 : Fin 2) e) := by
  unfold dstW
  refine (shapeCast_apply _ shapeCasts_S1x800000_S800000 (ix1 e) (ix2 (0 : Fin 1) e) ?_).trans ?_
  · rw [Shape.rowMajor_val_two, Shape.rowMajor_val_one]; show 0 * 800000 + e.val = e.val; omega
  · exact extractStridedSlice_apply ![1, 0] A1 slices_S2x800000_S1x800000_1_0 (ix2 (0 : Fin 1) e) (ix2 (1 : Fin 2) e)
      (fun a => match a with
        | ⟨0, _⟩ => by show 1 = 1 + 0; omega
        | ⟨1, _⟩ => by show e.val = 0 + e.val; omega)

/-- A bucket word is 4 · dst + typ, in 32-bit words. -/
private theorem bucketW_apply (e : Fin 800000) : bucketW A1 A2 (ix1 e) = A1 (ix2 (1 : Fin 2) e) * 4#32 + A2 (ix1 e) := by
  have hb : broadcastInDim S800000 ![] bcast_S_S800000 (constantI S_ 32 4#32) (ix1 e) = 4#32 :=
    broadcastInDim_apply _ bcast_S_S800000 _ (ix1 e) ix0 (fun a => a.elim0)
  unfold bucketW
  show dstW A1 (ix1 e) * broadcastInDim S800000 ![] bcast_S_S800000 (constantI S_ 32 4#32) (ix1 e) + A2 (ix1 e) = _
  rw [hb, dstW_apply]

/-- The one-column table at row e is the bucket word of edge e. -/
private theorem bucketCol_apply (e : Fin 800000) :
    bucketCol A1 A2 (ix2 e (0 : Fin 1)) = A1 (ix2 (1 : Fin 2) e) * 4#32 + A2 (ix1 e) := by
  unfold bucketCol
  exact (broadcastInDim_apply _ bcast_S800000_S800000x1_0 _ (ix2 e (0 : Fin 1)) (ix1 e)
    (fun a => match a with | ⟨0, _⟩ => rfl)).trans (bucketW_apply A1 A2 e)

/-- The edges of bucket r, by the host's bucket words. -/
private abbrev bkt' (r : Fin 200000) : Finset (Fin 800000) :=
  Finset.univ.filter fun e => (A1 (ix2 (1 : Fin 2) e) * 4#32 + A2 (ix1 e)).toInt = (r.val : Int)

/-- A bucketed sum is the sum of the bucket's message elements (the scatter starts from zero). -/
private theorem sums_apply (r : Fin 200000) (k : Fin 128) : sums A1 A2 G (ix2 r k) = ∑ e ∈ bkt' A1 A2 r, G (ix2 e k) := by
  have hz : broadcastInDim S200000x128 ![] bcast_S_S200000x128 (constant (F := Ideal) S_ .f32 0x00000000#32) (ix2 r k) = 0 :=
    (broadcastInDim_apply _ bcast_S_S200000x128 _ (ix2 r k) ix0 (fun a => a.elim0)).trans Ideal.ofBits_zero_f32
  unfold sums
  refine (scatterRows_apply _ _ _ r k).trans ?_
  rw [hz, zero_add]
  exact Finset.sum_congr (Finset.filter_congr fun e _ => by rw [bucketCol_apply]) fun _ _ => rfl

/-- A bucket's size is the number of its edges (the scatter adds a 1 per edge, from zero). -/
private theorem counts_apply (r : Fin 200000) : counts A1 A2 (ix1 r) = ∑ _e ∈ bkt' A1 A2 r, (1 : EReal) := by
  have hz : broadcastInDim S200000 ![] bcast_S_S200000 (constant (F := Ideal) S_ .f32 0x00000000#32) (ix1 r) = 0 :=
    (broadcastInDim_apply _ bcast_S_S200000 _ (ix1 r) ix0 (fun a => a.elim0)).trans Ideal.ofBits_zero_f32
  have ho : ∀ e : Fin 800000, broadcastInDim S800000 ![] bcast_S_S800000 (constant (F := Ideal) S_ .f32 0x3F800000#32) (ix1 e) = 1 := fun e =>
    (broadcastInDim_apply _ bcast_S_S800000 _ (ix1 e) ix0 (fun a => a.elim0)).trans Cert.Consts.ofBits_one
  unfold counts
  refine (scatterVec_apply _ _ _ r).trans ?_
  rw [hz, zero_add]
  exact Finset.sum_congr (Finset.filter_congr fun e _ => by rw [bucketCol_apply]) fun e _ => ho e

/-- The floored size at a bucket. -/
private theorem floorC_apply (r : Fin 200000) : floorC A1 A2 (ix1 r) = max (∑ _e ∈ bkt' A1 A2 r, (1 : EReal)) 1 := by
  have ho : broadcastInDim S200000 ![] bcast_S_S200000 (constant (F := Ideal) S_ .f32 0x3F800000#32) (ix1 r) = 1 :=
    (broadcastInDim_apply _ bcast_S_S200000 _ (ix1 r) ix0 (fun a => a.elim0)).trans Cert.Consts.ofBits_one
  unfold floorC
  refine (maximumf_apply _ _ (ix1 r)).trans ?_
  rw [ho, counts_apply]

/-- The floored size is the same along a bucket's row. -/
private theorem floorB_apply (r : Fin 200000) (k : Fin 128) : floorB A1 A2 (ix2 r k) = max (∑ _e ∈ bkt' A1 A2 r, (1 : EReal)) 1 := by
  unfold floorB
  refine (broadcastInDim_apply _ bcast_S200000x1_S200000x128_0_1 _ (ix2 r k) (ix2 r (0 : Fin 1))
    (fun a => match a with | ⟨0, _⟩ => rfl | ⟨1, _⟩ => rfl)).trans ?_
  exact (broadcastInDim_apply _ bcast_S200000_S200000x1_0 _ (ix2 r (0 : Fin 1)) (ix1 r)
    (fun a => match a with | ⟨0, _⟩ => rfl)).trans (floorC_apply A1 A2 r)

/-- A bucket mean: the bucket's sum over its floored size. -/
private theorem means_apply (r : Fin 200000) (k : Fin 128) :
    means A1 A2 G (ix2 r k) = Ideal.div (∑ e ∈ bkt' A1 A2 r, G (ix2 e k)) (max (∑ _e ∈ bkt' A1 A2 r, (1 : EReal)) 1) := by
  unfold means
  refine (hostDivf_apply _ _ (ix2 r k)).trans ?_
  rw [sums_apply, floorB_apply]

/-- Row n of the re-laid means holds buckets 4 n … 4 n + 3 end to end: flat position 512 n + 128 t + k = 128 (4 n + t) + k. -/
private theorem means4_apply (n : Fin 50000) (t : Fin 4) (k : Fin 128) :
    means4 A1 A2 G (ix2 n (⟨128 * t.val + k.val, by omega⟩ : Fin 512)) = means A1 A2 G (ix2 (Cert.Spec.bkt n t) k) := by
  unfold means4
  refine shapeCast_apply _ shapeCasts_S200000x128_S50000x512 _ _ ?_
  rw [Shape.rowMajor_val_two, Shape.rowMajor_val_two]
  show (4 * n.val + t.val) * 128 + k.val = n.val * 512 + (128 * t.val + k.val)
  omega

/-- The first 128 joined columns are the first piece's. -/
private theorem joined_self (n : Fin 50000) (k : Fin 128) :
    joined A0 A1 A2 G (ix2 n (⟨k.val, by omega⟩ : Fin 640)) = A0 (ix2 n k) := by
  unfold joined
  exact concatenate_pair_apply_left 1 A0 _ concatenates_S50000x128_S50000x512_S50000x640_d1 _ rfl (ix2 n k)
    (fun b => match b with | ⟨0, _⟩ => rfl | ⟨1, _⟩ => rfl)

/-- Joined column 128 + 128 t + k is column k of the mean of bucket 4 n + t, over the host's bucket words. -/
private theorem joined_mean (n : Fin 50000) (t : Fin 4) (k : Fin 128) :
    joined A0 A1 A2 G (ix2 n (⟨128 + 128 * t.val + k.val, by omega⟩ : Fin 640))
      = Cert.Spec.meanK (fun e k => G (ix2 e k)) (fun e => A1 (ix2 (1 : Fin 2) e)) (fun e => A2 (ix1 e)) (Cert.Spec.bkt n t) k := by
  unfold joined
  refine (concatenate_pair_apply_right 1 A0 _ concatenates_S50000x128_S50000x512_S50000x640_d1 _ rfl rfl
    (ix2 n (⟨128 * t.val + k.val, by omega⟩ : Fin 512))
    (fun b hb => match b with | ⟨0, _⟩ => rfl | ⟨1, _⟩ => absurd rfl hb)
    (by show 128 * t.val + k.val + 128 = 128 + 128 * t.val + k.val; omega)).trans ?_
  rw [means4_apply, means_apply]
  rfl

end Read

/-! ## The arrays as the region finds them -/

variable (m : (ℓ : Loc nD τ sig) → Buf (Elt Ideal) ℓ) (c : Dev nD)

/-- The gathered rows, as the region finds them, are the gather of the arguments. -/
private theorem gmsg_eq : (gmsg m c : S800000x128.Idx → EReal) = gat (a0 m c) (a1 m c) := by
  show (V m c main_v10 : S800000x128.Idx → EReal) = _
  dsimp only [Gen.V, Gen.hostOps0]; after_results; rfl

set_option maxHeartbeats 4000000 in
/-- The joined array, as the region finds it, is the chain over the arguments and the gathered rows. -/
private theorem cx_eq : (cx m c : S50000x640.Idx → EReal) = joined (a0 m c) (a1 m c) (a2 m c) (gmsg m c) := by
  refine Eq.trans ?_ (congrArg (joined (a0 m c) (a1 m c) (a2 m c)) (gmsg_eq m c).symm)
  show (V m c main_v37 : S50000x640.Idx → EReal) = _
  dsimp only [Gen.V, Gen.hostOps0]; after_results; rfl

/-- The first 128 joined columns are the node's own features. -/
theorem cx_self (n : Fin 50000) (k : Fin 128) :
    cx m c (ix2 n (⟨k.val, by omega⟩ : Fin 640)) = X m c n k := by
  refine (congrFun (cx_eq m c) _).trans ?_
  exact joined_self (a0 m c) (a1 m c) (a2 m c) (gmsg m c) n k

/-- Joined column 128 + 128 t + k is column k of the mean message of bucket 4 n + t. -/
theorem cx_mean (n : Fin 50000) (t : Fin 4) (k : Fin 128) :
    cx m c (ix2 n (⟨128 + 128 * t.val + k.val, by omega⟩ : Fin 640))
      = Cert.Spec.meanK (MSG m c) (DST m c) (TYP m c) (Cert.Spec.bkt n t) k := by
  refine (congrFun (cx_eq m c) _).trans ?_
  exact joined_mean (a0 m c) (a1 m c) (a2 m c) (gmsg m c) n t k

end Cert.KernelIdeal.KHostX

end
-- ==== Proof.KHostW.lean ====
/- The joined weight array ([640, 128]) and the bias row ([1, 128]) the kernel's host code builds before the
   region, read at an element: rows 0–127 are the self weights averaged over the four types, rows 128 + 128 t + k the
   neighbour weights of type t scaled by 1/4, and the bias row is the biases averaged over the types. -/
import proofs.«427738_j26104811225143_1_alg».proof.Proof.KArgs
import proofs.«427738_j26104811225143_1_alg».proof.Proof.Consts
import Idealize.ShloMosaic.Lib.StableHlo.Run
import Idealize.ShloMosaic.Lib.Pipeline.Value
import Idealize.ShloMosaic.PureOps.Ideal.Laws

noncomputable section

namespace Cert.KernelIdeal.KHostW

open Cert.KernelIdeal Cert.KernelIdeal.Gen Cert.KernelIdeal.KArgs Idealize.ShloMosaic Idealize.ShloMosaic.TcCoe Idealize.SL.Sem Idealize.ShloMosaic.ValueIdx

variable (m : (ℓ : Loc nD τ sig) → Buf (Elt Ideal) ℓ) (c : Dev nD)

/-! ## The host's terms, as functions of the argument arrays -/

/-- The sum of the self weights over the type axis, from 0. -/
def selfSum (x3 : (⟨S4x128x128, .f32⟩ : BufTy).Contents (Elt Ideal)) : (⟨S128x128, .f32⟩ : BufTy).Contents (Elt Ideal) :=
  Host.reduceAdd x3 (constant (F := Ideal) S_ .f32 0x00000000#32) reducesTo_S4x128x128_S128x128_d0 h_S_
/-- That sum over the splat 4. -/
def selfMean (x3 : (⟨S4x128x128, .f32⟩ : BufTy).Contents (Elt Ideal)) : (⟨S128x128, .f32⟩ : BufTy).Contents (Elt Ideal) :=
  Host.divf (selfSum x3) (broadcastInDim S128x128 ![] bcast_S_S128x128 (constant (F := Ideal) S_ .f32 0x40800000#32))
/-- The neighbour weights times the splat 1/4. -/
def neighQuarter (x4 : (⟨S4x128x128, .f32⟩ : BufTy).Contents (Elt Ideal)) : (⟨S4x128x128, .f32⟩ : BufTy).Contents (Elt Ideal) :=
  mulf x4 (broadcastInDim S4x128x128 ![] bcast_S_S4x128x128 (constant (F := Ideal) S_ .f32 0x3E800000#32))
/-- The same, its first two axes merged into 512 rows. -/
def neighRows (x4 : (⟨S4x128x128, .f32⟩ : BufTy).Contents (Elt Ideal)) : (⟨S512x128, .f32⟩ : BufTy).Contents (Elt Ideal) :=
  shapeCast _ (neighQuarter x4) shapeCasts_S4x128x128_S512x128
/-- The 128 averaged rows above the 512 scaled rows. -/
def joined (x3 x4 : (⟨S4x128x128, .f32⟩ : BufTy).Contents (Elt Ideal)) : (⟨S640x128, .f32⟩ : BufTy).Contents (Elt Ideal) :=
  concatenate S640x128 0 [⟨S128x128, selfMean x3⟩, ⟨S512x128, neighRows x4⟩] concatenates_S128x128_S512x128_S640x128_d0
/-- The sum of the biases over the type axis, from 0. -/
def biasSum (x5 : (⟨S4x128, .f32⟩ : BufTy).Contents (Elt Ideal)) : (⟨S128, .f32⟩ : BufTy).Contents (Elt Ideal) :=
  Host.reduceAdd x5 (constant (F := Ideal) S_ .f32 0x00000000#32) reducesTo_S4x128_S128_d0 h_S_
/-- That sum as a one-row array, over the splat 4. -/
def biasMean (x5 : (⟨S4x128, .f32⟩ : BufTy).Contents (Elt Ideal)) : (⟨S1x128, .f32⟩ : BufTy).Contents (Elt Ideal) :=
  Host.divf (broadcastInDim S1x128 ![1] bcast_S128_S1x128_1 (biasSum x5))
    (broadcastInDim S1x128 ![] bcast_S_S1x128 (constant (F := Ideal) S_ .f32 0x40800000#32))

/-- The joined weight array is the host's term of the two weight arguments. -/
theorem cw_eq : (cw m c : S640x128.Idx → EReal) = joined (a3 m c) (a4 m c) := by
  show (V m c main_v38 : S640x128.Idx → EReal) = _
  dsimp only [Gen.V, Gen.hostOps0]; after_results_simp; rfl
/-- The bias row is the host's term of the bias argument. -/
theorem cb_eq : (cb m c : S1x128.Idx → EReal) = biasMean (a5 m c) := by
  show (V m c main_v36 : S1x128.Idx → EReal) = _
  dsimp only [Gen.V, Gen.hostOps0]; after_results; rfl

/-! ## The terms read at an element -/

/-- The sum over the type axis at (k, f): the initial 0 drops, the inserted index is (t, k, f). -/
theorem selfSum_apply (x3 : (⟨S4x128x128, .f32⟩ : BufTy).Contents (Elt Ideal)) (k f : Fin 128) :
    selfSum x3 (ix2 k f) = ∑ t : Fin 4, x3 (ix3 t k f) := by
  unfold selfSum
  simp only [Host.reduceAdd, Ideal.hostReduceAdd_def]
  rw [Ideal.hostReduceAdd_single reducesTo_S4x128x128_S128x128_d0 (by decide)]
  rw [constant_apply, Ideal.ofBits_zero_f32, zero_add]
  refine Finset.sum_congr rfl fun t _ => ?_
  exact congrArg x3 (funext fun a => Fin.ext (by match a with | ⟨0, _⟩ => rfl | ⟨1, _⟩ => rfl | ⟨2, _⟩ => rfl))

/-- Row k of the averaged self weights: the sum over the types over the real 4. -/
theorem selfMean_apply (x3 : (⟨S4x128x128, .f32⟩ : BufTy).Contents (Elt Ideal)) (k f : Fin 128) :
    selfMean x3 (ix2 k f) = Ideal.div (∑ t : Fin 4, x3 (ix3 t k f)) ((4 : ℝ) : EReal) := by
  show Ideal.div (selfSum x3 (ix2 k f))
    (broadcastInDim S128x128 ![] bcast_S_S128x128 (constant (F := Ideal) S_ .f32 0x40800000#32) (ix2 k f)) = _
  rw [selfSum_apply, broadcastInDim_apply _ bcast_S_S128x128 _ _ (fun a => a.elim0) (fun a => a.elim0), constant_apply,
    Cert.Consts.ofBits_four]

/-- Row 128 t + k of the merged scaled neighbour weights is (t, k) of the unmerged array (row-major positions agree),
    there the weight times the real 1/4. -/
theorem neighRows_apply (x4 : (⟨S4x128x128, .f32⟩ : BufTy).Contents (Elt Ideal)) (t : Fin 4) (k f : Fin 128) :
    neighRows x4 (ix2 (⟨128 * t.val + k.val, by omega⟩ : Fin 512) f) = x4 (ix3 t k f) * ((1 / 4 : ℝ) : EReal) := by
  unfold neighRows
  rw [shapeCast_apply _ shapeCasts_S4x128x128_S512x128 _ (ix3 t k f) (by
    rewrite [Shape.rowMajor_val_three, Shape.rowMajor_val_two]
    show (t.val * 128 + k.val) * 128 + f.val = (128 * t.val + k.val) * 128 + f.val; omega)]
  show x4 (ix3 t k f)
    * (broadcastInDim S4x128x128 ![] bcast_S_S4x128x128 (constant (F := Ideal) S_ .f32 0x3E800000#32) (ix3 t k f)) = _
  rw [broadcastInDim_apply _ bcast_S_S4x128x128 _ _ (fun a => a.elim0) (fun a => a.elim0), constant_apply,
    Cert.Consts.ofBits_quarter]

/-- A row below 128 of the joined array is that row of the first piece. -/
theorem joined_self (x3 x4 : (⟨S4x128x128, .f32⟩ : BufTy).Contents (Elt Ideal)) (k f : Fin 128) :
    joined x3 x4 (ix2 (⟨k.val, by omega⟩ : Fin 640) f) = selfMean x3 (ix2 k f) := by
  unfold joined
  exact concatenate_pair_apply_left (t := S640x128) (s₁ := S128x128) (s₂ := S512x128) (0 : Fin 2) _ _
    concatenates_S128x128_S512x128_S640x128_d0 _ rfl (ix2 k f)
    (fun b => by match b with | ⟨0, _⟩ => rfl | ⟨1, _⟩ => rfl)

/-- Row 128 + j of the joined array is row j of the second piece. -/
theorem joined_neigh (x3 x4 : (⟨S4x128x128, .f32⟩ : BufTy).Contents (Elt Ideal)) (t : Fin 4) (k f : Fin 128) :
    joined x3 x4 (ix2 (⟨128 + 128 * t.val + k.val, by omega⟩ : Fin 640) f)
      = neighRows x4 (ix2 (⟨128 * t.val + k.val, by omega⟩ : Fin 512) f) := by
  unfold joined
  exact concatenate_pair_apply_right (t := S640x128) (s₁ := S128x128) (s₂ := S512x128) (0 : Fin 2) _ _
    concatenates_S128x128_S512x128_S640x128_d0 _ rfl rfl (ix2 (⟨128 * t.val + k.val, by omega⟩ : Fin 512) f)
    (fun b hb => by match b, hb with | ⟨0, _⟩, hb => exact absurd rfl hb | ⟨1, _⟩, _ => rfl)
    (by show 128 * t.val + k.val + 128 = 128 + 128 * t.val + k.val; omega)

/-- The sum of the biases over the type axis at f: the initial 0 drops, the inserted index is (t, f). -/
theorem biasSum_apply (x5 : (⟨S4x128, .f32⟩ : BufTy).Contents (Elt Ideal)) (f : Fin 128) :
    biasSum x5 (ix1 f) = ∑ t : Fin 4, x5 (ix2 t f) := by
  unfold biasSum
  simp only [Host.reduceAdd, Ideal.hostReduceAdd_def]
  rw [Ideal.hostReduceAdd_single reducesTo_S4x128_S128_d0 (by decide)]
  rw [constant_apply, Ideal.ofBits_zero_f32, zero_add]
  refine Finset.sum_congr rfl fun t _ => ?_
  exact congrArg x5 (funext fun a => Fin.ext (by match a with | ⟨0, _⟩ => rfl | ⟨1, _⟩ => rfl))

/-- The one row of the averaged biases: the sum over the types over the real 4. -/
theorem biasMean_apply (x5 : (⟨S4x128, .f32⟩ : BufTy).Contents (Elt Ideal)) (f : Fin 128) :
    biasMean x5 (ix2 (0 : Fin 1) f) = Ideal.div (∑ t : Fin 4, x5 (ix2 t f)) ((4 : ℝ) : EReal) := by
  show Ideal.div (broadcastInDim S1x128 ![1] bcast_S128_S1x128_1 (biasSum x5) (ix2 (0 : Fin 1) f))
    (broadcastInDim S1x128 ![] bcast_S_S1x128 (constant (F := Ideal) S_ .f32 0x40800000#32) (ix2 (0 : Fin 1) f)) = _
  rw [broadcastInDim_apply _ bcast_S128_S1x128_1 _ _ (ix1 f) (fun a => by
      match a with
      | ⟨0, _⟩ => show f.val = if (128 : Nat) = 1 then 0 else f.val; rw [if_neg (by decide)]),
    biasSum_apply, broadcastInDim_apply _ bcast_S_S1x128 _ _ (fun a => a.elim0) (fun a => a.elim0), constant_apply,
    Cert.Consts.ofBits_four]

/-- Rows 0–127: the self weights summed over the types, over 4. -/
theorem cw_self (k f : Fin 128) :
    cw m c (ix2 (⟨k.val, by omega⟩ : Fin 640) f) = Ideal.div (∑ t : Fin 4, WS m c t k f) ((4 : ℝ) : EReal) := by
  refine (congrFun (cw_eq m c) _).trans ?_
  rw [joined_self, selfMean_apply]; rfl

/-- Row 128 + 128 t + k: the neighbour weight of type t, times 1/4. -/
theorem cw_neigh (t : Fin 4) (k f : Fin 128) :
    cw m c (ix2 (⟨128 + 128 * t.val + k.val, by omega⟩ : Fin 640) f) = WN m c t k f * ((1 / 4 : ℝ) : EReal) := by
  refine (congrFun (cw_eq m c) _).trans ?_
  rw [joined_neigh, neighRows_apply]; rfl

/-- The bias row: the biases summed over the types, over 4. -/
theorem cb_mean (f : Fin 128) :
    cb m c (ix2 (0 : Fin 1) f) = Ideal.div (∑ t : Fin 4, BB m c t f) ((4 : ℝ) : EReal) := by
  refine (congrFun (cb_eq m c) _).trans ?_
  rw [biasMean_apply]; rfl

end Cert.KernelIdeal.KHostW

end
-- ==== Proof.Algebra.lean ====
/- The algebra that joins the two arrangements of Proof/Spec.lean: under finiteness and the index ranges,
   `kerOut = refOut`; and the 640-term contraction of the kernel's one product split into its five 128-term parts. -/
import proofs.«427738_j26104811225143_1_alg».proof.Proof.Spec

noncomputable section

namespace Cert.Spec

open Idealize.ShloMosaic

/-- A sum over 512 = 4 * 128 terms, read as four blocks of 128: term `128 * t + k` is block `t`, place `k`. -/
private theorem sum512_split (h : Fin 512 → EReal) :
    ∑ i : Fin 512, h i = ∑ t : Fin 4, ∑ k : Fin 128, h ⟨128 * t.val + k.val, by omega⟩ := by
  rw [← Fintype.sum_prod_type']
  symm
  apply Fintype.sum_equiv (finProdFinEquiv (m := 4) (n := 128))
  rintro ⟨t, k⟩
  congr 1
  apply Fin.ext
  simp only [finProdFinEquiv_apply_val]
  omega

/-- A sum over the 640 joined columns is the sum over the first 128 plus, for each of the four types, the sum over
    that type's 128 columns, which start at `128 + 128 * t`. -/
theorem sum640_split (g : Fin 640 → EReal) :
    ∑ j : Fin 640, g j
      = (∑ k : Fin 128, g ⟨k.val, by omega⟩) + ∑ t : Fin 4, ∑ k : Fin 128, g ⟨128 + 128 * t.val + k.val, by omega⟩ := by
  have h1 : ∑ j : Fin 640, g j
      = (∑ k : Fin 128, g (Fin.castAdd 512 k)) + ∑ i : Fin 512, g (Fin.natAdd 128 i) :=
    Fin.sum_univ_add (a := 128) (b := 512) g
  rw [h1, sum512_split]
  congr 1

/-! ## Words: the composite bucket number does not wrap -/

/-- For a destination below 50000 and a type below 4 the 32-bit composite `4 * dst + typ`, read signed, is the
    natural number `4 * dst + typ` (it is below 200000, far from 2^31). -/
private theorem word_toInt (d y : BitVec 32) (hd : d.toNat < 50000) (hy : y.toNat < 4) :
    (d * 4#32 + y).toInt = ((4 * d.toNat + y.toNat : ℕ) : Int) := by
  rw [BitVec.toInt_eq_toNat_cond]
  simp only [BitVec.toNat_add, BitVec.toNat_mul, BitVec.toNat_ofNat]
  split <;> omega

/-- A destination word below 50000, read signed, is its natural number. -/
private theorem dst_toInt (d : BitVec 32) (hd : d.toNat < 50000) : d.toInt = (d.toNat : Int) := by
  rw [BitVec.toInt_eq_toNat_cond]
  split <;> omega

/-- Bucket `4 * n + t` of the composite numbering holds exactly the edges into `n` whose type is `t`. -/
private theorem bucketK_eq (dst typ : Fin 800000 → BitVec 32)
    (hdst : ∀ e, (dst e).toNat < 50000) (htyp : ∀ e, (typ e).toNat < 4) (n : Fin 50000) (t : Fin 4) :
    bucketK dst typ (bkt n t) = (bucketR dst n).filter (fun e => typ e = BitVec.ofNat 32 t.val) := by
  ext e
  simp only [bucketK, bucketR, Finset.mem_filter, Finset.mem_univ, true_and]
  simp only [bkt]
  rw [word_toInt _ _ (hdst e) (htyp e), dst_toInt _ (hdst e)]
  have ht : typ e = BitVec.ofNat 32 t.val ↔ (typ e).toNat = t.val := by
    rw [← BitVec.toNat_inj, BitVec.toNat_ofNat, Nat.mod_eq_of_lt (by omega)]
  rw [ht]
  have h1 := htyp e
  have h2 := t.isLt
  omega

/-! ## The two arrangements have the same sums, counts and means -/

private theorem segK_eq (msg : Fin 800000 → Fin 128 → EReal) (dst typ : Fin 800000 → BitVec 32)
    (hdst : ∀ e, (dst e).toNat < 50000) (htyp : ∀ e, (typ e).toNat < 4) (n : Fin 50000) (t : Fin 4) (k : Fin 128) :
    segK msg dst typ (bkt n t) k = segR msg dst typ t n k := by
  unfold segK segR wR
  rw [bucketK_eq dst typ hdst htyp, Finset.sum_filter]
  apply Finset.sum_congr rfl
  intro e _
  split <;> simp

private theorem cntK_eq (dst typ : Fin 800000 → BitVec 32)
    (hdst : ∀ e, (dst e).toNat < 50000) (htyp : ∀ e, (typ e).toNat < 4) (n : Fin 50000) (t : Fin 4) :
    cntK dst typ (bkt n t) = cntR dst typ t n := by
  unfold cntK cntR wR
  rw [bucketK_eq dst typ hdst htyp, Finset.sum_filter]

private theorem meanK_eq (msg : Fin 800000 → Fin 128 → EReal) (dst typ : Fin 800000 → BitVec 32)
    (hdst : ∀ e, (dst e).toNat < 50000) (htyp : ∀ e, (typ e).toNat < 4) (n : Fin 50000) (t : Fin 4) (k : Fin 128) :
    meanK msg dst typ (bkt n t) k = meanR msg dst typ t n k := by
  unfold meanK meanR
  rw [segK_eq msg dst typ hdst htyp, cntK_eq dst typ hdst htyp]

/-! ## The mean is a real number -/

/-- The coercion of a finite sum of reals is the sum of the coercions. -/
private theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The larger of a real and 1 is a nonzero real. -/
private theorem max_one_real (c : ℝ) : ∃ m : ℝ, m ≠ 0 ∧ max (c : EReal) 1 = (m : EReal) := by
  rcases le_total (c : EReal) 1 with h | h
  · exact ⟨1, one_ne_zero, by rw [max_eq_right h]; rfl⟩
  · refine ⟨c, ?_, max_eq_left h⟩
    have h1 : (1 : ℝ) ≤ c := by exact_mod_cast h
    linarith

/-- With real messages, every mean is a real number: a sum of reals over a nonzero real. -/
private theorem meanR_real (mr : Fin 800000 → Fin 128 → ℝ) (dst typ : Fin 800000 → BitVec 32)
    (t : Fin 4) (n : Fin 50000) (k : Fin 128) :
    ∃ r : ℝ, meanR (fun e k => (mr e k : EReal)) dst typ t n k = (r : EReal) := by
  have hw : ∀ e, wR typ t e = ((if typ e = BitVec.ofNat 32 t.val then 1 else 0 : ℝ) : EReal) := by
    intro e; unfold wR; split <;> simp
  have hs : segR (fun e k => (mr e k : EReal)) dst typ t n k
      = ((∑ e ∈ bucketR dst n, mr e k * (if typ e = BitVec.ofNat 32 t.val then 1 else 0) : ℝ) : EReal) := by
    unfold segR; rw [coe_sum]
    apply Finset.sum_congr rfl; intro e _; rw [hw, EReal.coe_mul]
  have hc : cntR dst typ t n
      = ((∑ e ∈ bucketR dst n, (if typ e = BitVec.ofNat 32 t.val then 1 else 0) : ℝ) : EReal) := by
    unfold cntR; rw [coe_sum]
    apply Finset.sum_congr rfl; intro e _; rw [hw]
  obtain ⟨m, hm0, hm⟩ := max_one_real (∑ e ∈ bucketR dst n, (if typ e = BitVec.ofNat 32 t.val then 1 else 0))
  unfold meanR
  rw [hs, hc, hm, Ideal.div_coe hm0, ← EReal.coe_mul]
  exact ⟨_, rfl⟩

/-! ## The identity over the reals -/

/-- Averaging the four layers is one product with the averaged self weights, four products with the quartered
    neighbour weights, and the averaged bias: linearity of finite sums, and one exchange of the two summations. -/
private theorem real_identity (xr : Fin 128 → ℝ) (ws wn m : Fin 4 → Fin 128 → ℝ) (br : Fin 4 → ℝ) :
    ((∑ k : Fin 128, (xr k : EReal) * Ideal.div (∑ t : Fin 4, (ws t k : EReal)) ((4 : ℝ) : EReal))
      + ∑ t : Fin 4, ∑ k : Fin 128, (m t k : EReal) * ((wn t k : EReal) * ((1 / 4 : ℝ) : EReal)))
      + Ideal.div (∑ t : Fin 4, (br t : EReal)) ((4 : ℝ) : EReal)
    = Ideal.div (∑ t : Fin 4, (((∑ k : Fin 128, (xr k : EReal) * (ws t k : EReal))
        + ∑ k : Fin 128, (m t k : EReal) * (wn t k : EReal)) + (br t : EReal))) ((4 : ℝ) : EReal) := by
  have h4 : (4 : ℝ) ≠ 0 := by norm_num
  simp only [Ideal.div_coe h4, ← coe_sum, ← EReal.coe_mul, ← EReal.coe_add]
  congr 1
  simp only [Finset.sum_add_distrib, add_mul, Finset.sum_mul, Finset.mul_sum, mul_assoc]
  rw [Finset.sum_comm]

/-- The two arrangements agree: every number finite, every destination word below 50000 and every type word below 4
    (read unsigned, so also non-negative as signed words). -/
theorem kerOut_eq_refOut (x : Fin 50000 → Fin 128 → EReal) (msg : Fin 800000 → Fin 128 → EReal) (dst typ : Fin 800000 → BitVec 32)
    (Ws Wn : Fin 4 → Fin 128 → Fin 128 → EReal) (b : Fin 4 → Fin 128 → EReal)
    (hx : ∀ n k, ∃ r : ℝ, x n k = (r : EReal)) (hmsg : ∀ e k, ∃ r : ℝ, msg e k = (r : EReal))
    (hWs : ∀ t k f, ∃ r : ℝ, Ws t k f = (r : EReal)) (hWn : ∀ t k f, ∃ r : ℝ, Wn t k f = (r : EReal))
    (hb : ∀ t f, ∃ r : ℝ, b t f = (r : EReal))
    (hdst : ∀ e, (dst e).toNat < 50000) (htyp : ∀ e, (typ e).toNat < 4) (n : Fin 50000) (f : Fin 128) :
    kerOut x msg dst typ Ws Wn b n f = refOut x msg dst typ Ws Wn b n f := by
  choose xr hxr using hx
  choose mr hmr using hmsg
  choose wsr hwsr using hWs
  choose wnr hwnr using hWn
  choose br hbr using hb
  obtain rfl : x = fun n k => (xr n k : EReal) := funext fun n => funext fun k => hxr n k
  obtain rfl : msg = fun e k => (mr e k : EReal) := funext fun e => funext fun k => hmr e k
  obtain rfl : Ws = fun t k f => (wsr t k f : EReal) :=
    funext fun t => funext fun k => funext fun f => hwsr t k f
  obtain rfl : Wn = fun t k f => (wnr t k f : EReal) :=
    funext fun t => funext fun k => funext fun f => hwnr t k f
  obtain rfl : b = fun t f => (br t f : EReal) := funext fun t => funext fun f => hbr t f
  choose M hM using fun t k => meanR_real mr dst typ t n k
  unfold kerOut refOut layerR
  simp only [meanK_eq _ dst typ hdst htyp, hM]
  exact real_identity (xr n) (fun t k => wsr t k f) (fun t k => wnr t k f) M (fun t => br t f)

end Cert.Spec

end
-- ==== Proof.KFinal.lean ====
/- The idealized kernel's result array is the kernel arrangement of Proof/Spec.lean, element by element: the
   region's product (Proof/KBlock.lean) over the joined arrays the host code built (Proof/KHostX.lean,
   Proof/KHostW.lean), its 640-term contraction split into the node's own 128 columns and the four types' 128. -/
import proofs.«427738_j26104811225143_1_alg».proof.Proof.KBlock
import proofs.«427738_j26104811225143_1_alg».proof.Proof.KHostX
import proofs.«427738_j26104811225143_1_alg».proof.Proof.KHostW
import proofs.«427738_j26104811225143_1_alg».proof.Proof.Algebra

noncomputable section

namespace Cert.KernelIdeal.KFinal

open Cert.KernelIdeal Cert.KernelIdeal.Gen Cert.KernelIdeal.KArgs Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The result array after the region, element by element, as the kernel arrangement. -/
theorem final (n : Fin 50000) (f : Fin 128) :
    (dats m 0 c).arrAt 3 cfg0.N (ix2 n f)
      = Cert.Spec.kerOut (X m c) (MSG m c) (DST m c) (TYP m c) (WS m c) (WN m c) (BB m c) n f := by
  unfold Cert.Spec.kerOut
  refine (KBlock.final_mm m c n f).trans ?_
  refine congrArg₂ (· + ·) ((Cert.Spec.sum640_split _).trans (congrArg₂ (· + ·)
    (Finset.sum_congr rfl fun k _ => ?_) (Finset.sum_congr rfl fun t _ => Finset.sum_congr rfl fun k _ => ?_)))
    (KHostW.cb_mean m c f)
  · exact congrArg₂ (· * ·) (KHostX.cx_self m c n k) (KHostW.cw_self m c k f)
  · exact congrArg₂ (· * ·) (KHostX.cx_mean m c n t k) (KHostW.cw_neigh m c t k f)

end Cert.KernelIdeal.KFinal

end
-- ==== Proof.RArgs.lean ====
/- The idealized reference's argument arrays by coordinates: the names the reference-side modules share
   (the same roles as the kernel side's: features, gathered source rows, destination and type words, weights, biases). -/
import proofs.«427738_j26104811225143_1_alg».proof.Proof.Gen.ReferenceIdeal.Read
import Idealize.ShloMosaic.Lib.ValueIdx

noncomputable section

namespace Cert.ReferenceIdeal.RArgs

open Cert.ReferenceIdeal Cert.ReferenceIdeal.Gen Idealize.ShloMosaic Idealize.ShloMosaic.TcCoe Idealize.SL.Sem Idealize.ShloMosaic.ValueIdx

variable (x0 : FVec Ideal S50000x128 .f32) (x1 : IVec S2x800000 32) (x2 : IVec S800000 32)
  (x3 x4 : FVec Ideal S4x128x128 .f32) (x5 : FVec Ideal S4x128 .f32)

def X (n : Fin 50000) (k : Fin 128) : EReal := x0 (ix2 n k)
def MSG (e : Fin 800000) (k : Fin 128) : EReal := Read.val_main_v10 (F := Ideal) x0 x1 (ix2 e k)
def DST (e : Fin 800000) : BitVec 32 := x1 (ix2 (1 : Fin 2) e)
def TYP (e : Fin 800000) : BitVec 32 := x2 (ix1 e)
def WS (t : Fin 4) (k f : Fin 128) : EReal := x3 (ix3 t k f)
def WN (t : Fin 4) (k f : Fin 128) : EReal := x4 (ix3 t k f)
def BB (t : Fin 4) (f : Fin 128) : EReal := x5 (ix2 t f)

end Cert.ReferenceIdeal.RArgs

end
-- ==== Proof.RMean.lean ====
/- The reference's mean messages, read at an element: for each of the four types, the sum of the 0/1-weighted
   messages into a node over the larger of the weighted edge count and 1. -/
import proofs.«427738_j26104811225143_1_alg».proof.Proof.RArgs
import proofs.«427738_j26104811225143_1_alg».proof.Proof.Spec
import proofs.«427738_j26104811225143_1_alg».proof.Proof.Consts
import proofs.«427738_j26104811225143_1_alg».proof.Proof.LibScatterRead

noncomputable section

namespace Cert.ReferenceIdeal.RMean

open Cert.ReferenceIdeal Cert.ReferenceIdeal.Gen Cert.ReferenceIdeal.RArgs Idealize.ShloMosaic Idealize.ShloMosaic.TcCoe Idealize.SL.Sem Idealize.ShloMosaic.ValueIdx

variable (x0 : FVec Ideal S50000x128 .f32) (x1 : IVec S2x800000 32) (x2 : IVec S800000 32)

/-! ## Shared by the four types -/

/-- The flattened row 1 of the edge array at edge e is its destination word. -/
theorem dst_row (e : Fin 800000) : Read.val_main_v3 (F := Ideal) x1 (ix1 e) = DST x1 e := by
  rw [Read.val_main_v3_apply, Read.val_main_v2_apply]
  unfold DST
  congr 1
  funext a
  match a with
  | ⟨0, _⟩ => rfl
  | ⟨1, _⟩ => exact Fin.ext (Nat.mod_eq_of_lt e.isLt)

/-- An equality bit converted to a number: 1 when the words agree, 0 otherwise. -/
theorem bit_weight (v c : BitVec 32) :
    (FloatOps.uitofp .f32 (IntOp.cmpi .eq v c) : Ideal .f32) = if v = c then 1 else 0 := by
  show (((IntOp.cmpi .eq v c).toNat : ℝ) : EReal) = _
  by_cases h : v = c
  · rw [if_pos h]; subst h; simp [IntOp.cmpi]
  · rw [if_neg h]; simp [IntOp.cmpi, h]

/-- An accumulating row scatter read at one element, for any record equal to the rows form:
    the operand's element plus the update elements of the rows whose start word, read signed, is that row. -/
theorem scat_rows {R C E w : Nat}
    (wf : ScatterDims.WF ⟨2, ![R, C]⟩ ⟨2, ![E, 1]⟩ ⟨2, ![E, C]⟩ [1] [0] [0] 1)
    (d : ScatterDims ⟨2, ![R, C]⟩ ⟨2, ![E, 1]⟩ ⟨2, ![E, C]⟩)
    (hd : d = { updateWindowDims := [1], insertedWindowDims := [0], scatterDimsToOperandDims := [0], indexVectorDim := 1, wf := wf })
    (x : FVec Ideal ⟨2, ![R, C]⟩ .f32) (idx : IVec ⟨2, ![E, 1]⟩ w) (upd : FVec Ideal ⟨2, ![E, C]⟩ .f32)
    (r : Fin R) (k : Fin C) :
    Host.scatterAdd (F := Ideal) d x idx upd (ix2 r k)
      = x (ix2 r k) + ∑ e ∈ Finset.univ.filter (fun e : Fin E => (idx (ix2 e 0)).toInt = (r.val : Int)), upd (ix2 e k) := by
  subst hd
  exact Cert.ScatterRead.scatterAdd_rows_apply wf x idx upd r k

/-! ## Type 0 -/

/-- The destination column of the message scatter at edge e is row 1 of the edge array. -/
theorem dstA0 (e : Fin 800000) : Read.val_main_v18 (F := Ideal) x1 (ix2 e 0) = DST x1 e := by
  rw [Read.val_main_v18_apply]
  have hi : Read.idx_main_v18 (ix2 e (0 : Fin 1)) = ix1 e := by
    funext a; match a with | ⟨0, _⟩ => rfl
  rw [hi]; exact dst_row x1 e

/-- The destination column of the count scatter, likewise. -/
theorem dstB0 (e : Fin 800000) : Read.val_main_v21 (F := Ideal) x1 (ix2 e 0) = DST x1 e := by
  rw [Read.val_main_v21_apply]
  have hi : Read.idx_main_v21 (ix2 e (0 : Fin 1)) = ix1 e := by
    funext a; match a with | ⟨0, _⟩ => rfl
  rw [hi]; exact dst_row x1 e

/-- The type-0 weight column at edge e: 1 when the edge's type word is 0, else 0. -/
theorem w0 (e : Fin 800000) : Read.val_main_v14 (F := Ideal) x2 (ix2 e 0) = Cert.Spec.wR (TYP x2) 0 e := by
  rw [Read.val_main_v14_apply, Read.val_main_v13_apply, Read.val_main_v12_apply, Read.val_main_v11_apply,
    Read.val_main_c_1_apply]
  have hi : Read.idx_main_v14 (ix2 e (0 : Fin 1)) = ix1 e := by
    funext a; match a with | ⟨0, _⟩ => rfl
  rw [hi]
  exact bit_weight _ _

/-- The number of type-0 edges into node n: the count scatter over a zero column. -/
theorem cnt0 (n : Fin 50000) :
    Read.val_main_v22 (F := Ideal) x1 x2 (ix2 n 0) = Cert.Spec.cntR (DST x1) (TYP x2) 0 n := by
  unfold Read.val_main_v22
  refine (scat_rows scatter_S50000x1_S800000x1_S800000x1_1_0_0_1_wf scatter_S50000x1_S800000x1_S800000x1_1_0_0_1 rfl
    (Read.val_main_v20 (F := Ideal)) (Read.val_main_v21 (F := Ideal) x1) (Read.val_main_v14 (F := Ideal) x2) n 0).trans ?_
  rw [Read.val_main_v20_apply, Read.val_main_cst_2_apply, Ideal.ofBits_def, Ideal.ofBits_zero_f32, zero_add]
  unfold Cert.Spec.cntR Cert.Spec.bucketR
  simp only [dstB0, w0]

/-- The sum of the type-0 messages into node n, column k: the message scatter over a zero array,
    its update row e the gathered row times the edge's weight. -/
theorem seg0 (n : Fin 50000) (k : Fin 128) :
    Read.val_main_v19 (F := Ideal) x0 x1 x2 (ix2 n k) = Cert.Spec.segR (MSG x0 x1) (DST x1) (TYP x2) 0 n k := by
  unfold Read.val_main_v19
  refine (scat_rows scatter_S50000x128_S800000x1_S800000x128_1_0_0_1_wf scatter_S50000x128_S800000x1_S800000x128_1_0_0_1 rfl
    (Read.val_main_v17 (F := Ideal)) (Read.val_main_v18 (F := Ideal) x1) (Read.val_main_v16 (F := Ideal) x0 x1 x2) n k).trans ?_
  rw [Read.val_main_v17_apply, Read.val_main_cst_apply, Ideal.ofBits_def, Ideal.ofBits_zero_f32, zero_add]
  unfold Cert.Spec.segR Cert.Spec.bucketR
  have hu : ∀ e : Fin 800000,
      Read.val_main_v16 (F := Ideal) x0 x1 x2 (ix2 e k) = MSG x0 x1 e k * Cert.Spec.wR (TYP x2) 0 e := by
    intro e
    rw [Read.val_main_v16_apply, Read.val_main_v15_apply]
    have hi : Read.idx_main_v15 (ix2 e k) = ix2 e (0 : Fin 1) := by
      funext a; match a with | ⟨0, _⟩ => rfl | ⟨1, _⟩ => rfl
    rw [hi, w0, Ideal.mulf_def]; rfl
  simp only [dstA0, hu]

/-- Type 0's mean message into node n, column k. -/
theorem mean0 (n : Fin 50000) (k : Fin 128) :
    Read.val_main_v26 (F := Ideal) x0 x1 x2 (ix2 n k) = Cert.Spec.meanR (MSG x0 x1) (DST x1) (TYP x2) 0 n k := by
  unfold Cert.Spec.meanR
  rw [Read.val_main_v26_apply, Ideal.hostDivf_def, Read.val_main_v25_apply]
  have hi : Read.idx_main_v25 (ix2 n k) = ix2 n (0 : Fin 1) := by
    funext a; match a with | ⟨0, _⟩ => rfl | ⟨1, _⟩ => rfl
  rw [hi, Read.val_main_v24_apply, Ideal.maximumf_def, Read.val_main_v23_apply, Read.val_main_cst_3_apply,
    Ideal.ofBits_def, Cert.Consts.ofBits_one, seg0, cnt0]

/-! ## Type 1 -/

/-- The destination column of the message scatter at edge e is row 1 of the edge array. -/
theorem dstA1 (e : Fin 800000) : Read.val_main_v46 (F := Ideal) x1 (ix2 e 0) = DST x1 e := by
  rw [Read.val_main_v46_apply]
  have hi : Read.idx_main_v46 (ix2 e (0 : Fin 1)) = ix1 e := by
    funext a; match a with | ⟨0, _⟩ => rfl
  rw [hi]; exact dst_row x1 e

/-- The destination column of the count scatter, likewise. -/
theorem dstB1 (e : Fin 800000) : Read.val_main_v49 (F := Ideal) x1 (ix2 e 0) = DST x1 e := by
  rw [Read.val_main_v49_apply]
  have hi : Read.idx_main_v49 (ix2 e (0 : Fin 1)) = ix1 e := by
    funext a; match a with | ⟨0, _⟩ => rfl
  rw [hi]; exact dst_row x1 e

/-- The type-1 weight column at edge e: 1 when the edge's type word is 1, else 0. -/
theorem w1 (e : Fin 800000) : Read.val_main_v42 (F := Ideal) x2 (ix2 e 0) = Cert.Spec.wR (TYP x2) 1 e := by
  rw [Read.val_main_v42_apply, Read.val_main_v41_apply, Read.val_main_v40_apply, Read.val_main_v39_apply,
    Read.val_main_c_4_apply]
  have hi : Read.idx_main_v42 (ix2 e (0 : Fin 1)) = ix1 e := by
    funext a; match a with | ⟨0, _⟩ => rfl
  rw [hi]
  exact bit_weight _ _

/-- The number of type-1 edges into node n: the count scatter over a zero column. -/
theorem cnt1 (n : Fin 50000) :
    Read.val_main_v50 (F := Ideal) x1 x2 (ix2 n 0) = Cert.Spec.cntR (DST x1) (TYP x2) 1 n := by
  unfold Read.val_main_v50
  refine (scat_rows scatter_S50000x1_S800000x1_S800000x1_1_0_0_1_wf scatter_S50000x1_S800000x1_S800000x1_1_0_0_1 rfl
    (Read.val_main_v48 (F := Ideal)) (Read.val_main_v49 (F := Ideal) x1) (Read.val_main_v42 (F := Ideal) x2) n 0).trans ?_
  rw [Read.val_main_v48_apply, Read.val_main_cst_6_apply, Ideal.ofBits_def, Ideal.ofBits_zero_f32, zero_add]
  unfold Cert.Spec.cntR Cert.Spec.bucketR
  simp only [dstB1, w1]

/-- The sum of the type-1 messages into node n, column k: the message scatter over a zero array,
    its update row e the gathered row times the edge's weight. -/
theorem seg1 (n : Fin 50000) (k : Fin 128) :
    Read.val_main_v47 (F := Ideal) x0 x1 x2 (ix2 n k) = Cert.Spec.segR (MSG x0 x1) (DST x1) (TYP x2) 1 n k := by
  unfold Read.val_main_v47
  refine (scat_rows scatter_S50000x128_S800000x1_S800000x128_1_0_0_1_wf scatter_S50000x128_S800000x1_S800000x128_1_0_0_1 rfl
    (Read.val_main_v45 (F := Ideal)) (Read.val_main_v46 (F := Ideal) x1) (Read.val_main_v44 (F := Ideal) x0 x1 x2) n k).trans ?_
  rw [Read.val_main_v45_apply, Read.val_main_cst_5_apply, Ideal.ofBits_def, Ideal.ofBits_zero_f32, zero_add]
  unfold Cert.Spec.segR Cert.Spec.bucketR
  have hu : ∀ e : Fin 800000,
      Read.val_main_v44 (F := Ideal) x0 x1 x2 (ix2 e k) = MSG x0 x1 e k * Cert.Spec.wR (TYP x2) 1 e := by
    intro e
    rw [Read.val_main_v44_apply, Read.val_main_v43_apply]
    have hi : Read.idx_main_v43 (ix2 e k) = ix2 e (0 : Fin 1) := by
      funext a; match a with | ⟨0, _⟩ => rfl | ⟨1, _⟩ => rfl
    rw [hi, w1, Ideal.mulf_def]; rfl
  simp only [dstA1, hu]

/-- Type 1's. -/
theorem mean1 (n : Fin 50000) (k : Fin 128) :
    Read.val_main_v54 (F := Ideal) x0 x1 x2 (ix2 n k) = Cert.Spec.meanR (MSG x0 x1) (DST x1) (TYP x2) 1 n k := by
  unfold Cert.Spec.meanR
  rw [Read.val_main_v54_apply, Ideal.hostDivf_def, Read.val_main_v53_apply]
  have hi : Read.idx_main_v53 (ix2 n k) = ix2 n (0 : Fin 1) := by
    funext a; match a with | ⟨0, _⟩ => rfl | ⟨1, _⟩ => rfl
  rw [hi, Read.val_main_v52_apply, Ideal.maximumf_def, Read.val_main_v51_apply, Read.val_main_cst_7_apply,
    Ideal.ofBits_def, Cert.Consts.ofBits_one, seg1, cnt1]

/-! ## Type 2 -/

/-- The destination column of the message scatter at edge e is row 1 of the edge array. -/
theorem dstA2 (e : Fin 800000) : Read.val_main_v74 (F := Ideal) x1 (ix2 e 0) = DST x1 e := by
  rw [Read.val_main_v74_apply]
  have hi : Read.idx_main_v74 (ix2 e (0 : Fin 1)) = ix1 e := by
    funext a; match a with | ⟨0, _⟩ => rfl
  rw [hi]; exact dst_row x1 e

/-- The destination column of the count scatter, likewise. -/
theorem dstB2 (e : Fin 800000) : Read.val_main_v77 (F := Ideal) x1 (ix2 e 0) = DST x1 e := by
  rw [Read.val_main_v77_apply]
  have hi : Read.idx_main_v77 (ix2 e (0 : Fin 1)) = ix1 e := by
    funext a; match a with | ⟨0, _⟩ => rfl
  rw [hi]; exact dst_row x1 e

/-- The type-2 weight column at edge e: 1 when the edge's type word is 2, else 0. -/
theorem w2 (e : Fin 800000) : Read.val_main_v70 (F := Ideal) x2 (ix2 e 0) = Cert.Spec.wR (TYP x2) 2 e := by
  rw [Read.val_main_v70_apply, Read.val_main_v69_apply, Read.val_main_v68_apply, Read.val_main_v67_apply,
    Read.val_main_c_8_apply]
  have hi : Read.idx_main_v70 (ix2 e (0 : Fin 1)) = ix1 e := by
    funext a; match a with | ⟨0, _⟩ => rfl
  rw [hi]
  exact bit_weight _ _

/-- The number of type-2 edges into node n: the count scatter over a zero column. -/
theorem cnt2 (n : Fin 50000) :
    Read.val_main_v78 (F := Ideal) x1 x2 (ix2 n 0) = Cert.Spec.cntR (DST x1) (TYP x2) 2 n := by
  unfold Read.val_main_v78
  refine (scat_rows scatter_S50000x1_S800000x1_S800000x1_1_0_0_1_wf scatter_S50000x1_S800000x1_S800000x1_1_0_0_1 rfl
    (Read.val_main_v76 (F := Ideal)) (Read.val_main_v77 (F := Ideal) x1) (Read.val_main_v70 (F := Ideal) x2) n 0).trans ?_
  rw [Read.val_main_v76_apply, Read.val_main_cst_10_apply, Ideal.ofBits_def, Ideal.ofBits_zero_f32, zero_add]
  unfold Cert.Spec.cntR Cert.Spec.bucketR
  simp only [dstB2, w2]

/-- The sum of the type-2 messages into node n, column k: the message scatter over a zero array,
    its update row e the gathered row times the edge's weight. -/
theorem seg2 (n : Fin 50000) (k : Fin 128) :
    Read.val_main_v75 (F := Ideal) x0 x1 x2 (ix2 n k) = Cert.Spec.segR (MSG x0 x1) (DST x1) (TYP x2) 2 n k := by
  unfold Read.val_main_v75
  refine (scat_rows scatter_S50000x128_S800000x1_S800000x128_1_0_0_1_wf scatter_S50000x128_S800000x1_S800000x128_1_0_0_1 rfl
    (Read.val_main_v73 (F := Ideal)) (Read.val_main_v74 (F := Ideal) x1) (Read.val_main_v72 (F := Ideal) x0 x1 x2) n k).trans ?_
  rw [Read.val_main_v73_apply, Read.val_main_cst_9_apply, Ideal.ofBits_def, Ideal.ofBits_zero_f32, zero_add]
  unfold Cert.Spec.segR Cert.Spec.bucketR
  have hu : ∀ e : Fin 800000,
      Read.val_main_v72 (F := Ideal) x0 x1 x2 (ix2 e k) = MSG x0 x1 e k * Cert.Spec.wR (TYP x2) 2 e := by
    intro e
    rw [Read.val_main_v72_apply, Read.val_main_v71_apply]
    have hi : Read.idx_main_v71 (ix2 e k) = ix2 e (0 : Fin 1) := by
      funext a; match a with | ⟨0, _⟩ => rfl | ⟨1, _⟩ => rfl
    rw [hi, w2, Ideal.mulf_def]; rfl
  simp only [dstA2, hu]

/-- Type 2's. -/
theorem mean2 (n : Fin 50000) (k : Fin 128) :
    Read.val_main_v82 (F := Ideal) x0 x1 x2 (ix2 n k) = Cert.Spec.meanR (MSG x0 x1) (DST x1) (TYP x2) 2 n k := by
  unfold Cert.Spec.meanR
  rw [Read.val_main_v82_apply, Ideal.hostDivf_def, Read.val_main_v81_apply]
  have hi : Read.idx_main_v81 (ix2 n k) = ix2 n (0 : Fin 1) := by
    funext a; match a with | ⟨0, _⟩ => rfl | ⟨1, _⟩ => rfl
  rw [hi, Read.val_main_v80_apply, Ideal.maximumf_def, Read.val_main_v79_apply, Read.val_main_cst_11_apply,
    Ideal.ofBits_def, Cert.Consts.ofBits_one, seg2, cnt2]

/-! ## Type 3 -/

/-- The destination column of the message scatter at edge e is row 1 of the edge array. -/
theorem dstA3 (e : Fin 800000) : Read.val_main_v102 (F := Ideal) x1 (ix2 e 0) = DST x1 e := by
  rw [Read.val_main_v102_apply]
  have hi : Read.idx_main_v102 (ix2 e (0 : Fin 1)) = ix1 e := by
    funext a; match a with | ⟨0, _⟩ => rfl
  rw [hi]; exact dst_row x1 e

/-- The destination column of the count scatter, likewise. -/
theorem dstB3 (e : Fin 800000) : Read.val_main_v105 (F := Ideal) x1 (ix2 e 0) = DST x1 e := by
  rw [Read.val_main_v105_apply]
  have hi : Read.idx_main_v105 (ix2 e (0 : Fin 1)) = ix1 e := by
    funext a; match a with | ⟨0, _⟩ => rfl
  rw [hi]; exact dst_row x1 e

/-- The type-3 weight column at edge e: 1 when the edge's type word is 3, else 0. -/
theorem w3 (e : Fin 800000) : Read.val_main_v98 (F := Ideal) x2 (ix2 e 0) = Cert.Spec.wR (TYP x2) 3 e := by
  rw [Read.val_main_v98_apply, Read.val_main_v97_apply, Read.val_main_v96_apply, Read.val_main_v95_apply,
    Read.val_main_c_12_apply]
  have hi : Read.idx_main_v98 (ix2 e (0 : Fin 1)) = ix1 e := by
    funext a; match a with | ⟨0, _⟩ => rfl
  rw [hi]
  exact bit_weight _ _

/-- The number of type-3 edges into node n: the count scatter over a zero column. -/
theorem cnt3 (n : Fin 50000) :
    Read.val_main_v106 (F := Ideal) x1 x2 (ix2 n 0) = Cert.Spec.cntR (DST x1) (TYP x2) 3 n := by
  unfold Read.val_main_v106
  refine (scat_rows scatter_S50000x1_S800000x1_S800000x1_1_0_0_1_wf scatter_S50000x1_S800000x1_S800000x1_1_0_0_1 rfl
    (Read.val_main_v104 (F := Ideal)) (Read.val_main_v105 (F := Ideal) x1) (Read.val_main_v98 (F := Ideal) x2) n 0).trans ?_
  rw [Read.val_main_v104_apply, Read.val_main_cst_14_apply, Ideal.ofBits_def, Ideal.ofBits_zero_f32, zero_add]
  unfold Cert.Spec.cntR Cert.Spec.bucketR
  simp only [dstB3, w3]

/-- The sum of the type-3 messages into node n, column k: the message scatter over a zero array,
    its update row e the gathered row times the edge's weight. -/
theorem seg3 (n : Fin 50000) (k : Fin 128) :
    Read.val_main_v103 (F := Ideal) x0 x1 x2 (ix2 n k) = Cert.Spec.segR (MSG x0 x1) (DST x1) (TYP x2) 3 n k := by
  unfold Read.val_main_v103
  refine (scat_rows scatter_S50000x128_S800000x1_S800000x128_1_0_0_1_wf scatter_S50000x128_S800000x1_S800000x128_1_0_0_1 rfl
    (Read.val_main_v101 (F := Ideal)) (Read.val_main_v102 (F := Ideal) x1) (Read.val_main_v100 (F := Ideal) x0 x1 x2) n k).trans ?_
  rw [Read.val_main_v101_apply, Read.val_main_cst_13_apply, Ideal.ofBits_def, Ideal.ofBits_zero_f32, zero_add]
  unfold Cert.Spec.segR Cert.Spec.bucketR
  have hu : ∀ e : Fin 800000,
      Read.val_main_v100 (F := Ideal) x0 x1 x2 (ix2 e k) = MSG x0 x1 e k * Cert.Spec.wR (TYP x2) 3 e := by
    intro e
    rw [Read.val_main_v100_apply, Read.val_main_v99_apply]
    have hi : Read.idx_main_v99 (ix2 e k) = ix2 e (0 : Fin 1) := by
      funext a; match a with | ⟨0, _⟩ => rfl | ⟨1, _⟩ => rfl
    rw [hi, w3, Ideal.mulf_def]; rfl
  simp only [dstA3, hu]

/-- Type 3's. -/
theorem mean3 (n : Fin 50000) (k : Fin 128) :
    Read.val_main_v110 (F := Ideal) x0 x1 x2 (ix2 n k) = Cert.Spec.meanR (MSG x0 x1) (DST x1) (TYP x2) 3 n k := by
  unfold Cert.Spec.meanR
  rw [Read.val_main_v110_apply, Ideal.hostDivf_def, Read.val_main_v109_apply]
  have hi : Read.idx_main_v109 (ix2 n k) = ix2 n (0 : Fin 1) := by
    funext a; match a with | ⟨0, _⟩ => rfl | ⟨1, _⟩ => rfl
  rw [hi, Read.val_main_v108_apply, Ideal.maximumf_def, Read.val_main_v107_apply, Read.val_main_cst_15_apply,
    Ideal.ofBits_def, Cert.Consts.ofBits_one, seg3, cnt3]

end Cert.ReferenceIdeal.RMean

end
-- ==== Proof.RLayer.lean ====
/- The reference's four per-type layer outputs, read at an element: the node's features times the type's self
   weights, plus the type's mean message times its neighbour weights, plus its bias. -/
import proofs.«427738_j26104811225143_1_alg».proof.Proof.RMean

noncomputable section

namespace Cert.ReferenceIdeal.RLayer

open Cert.ReferenceIdeal Cert.ReferenceIdeal.Gen Cert.ReferenceIdeal.RArgs Idealize.ShloMosaic Idealize.ShloMosaic.TcCoe Idealize.SL.Sem Idealize.ShloMosaic.ValueIdx

variable (x0 : FVec Ideal S50000x128 .f32) (x1 : IVec S2x800000 32) (x2 : IVec S800000 32)
  (x3 x4 : FVec Ideal S4x128x128 .f32) (x5 : FVec Ideal S4x128 .f32)

/-- The left operand of the self product is read at row n, column k. -/
private theorem lself0 (n : Fin 50000) (f k : Fin 128) : Read.lidx_main_v29 (ix2 n f) k = ix2 n k :=
  funext fun a => Fin.ext (by match a with | ⟨0, _⟩ => rfl | ⟨1, _⟩ => rfl)

/-- The left operand of the neighbour product is read at row n, column k. -/
private theorem lneigh0 (n : Fin 50000) (f k : Fin 128) : Read.lidx_main_v32 (ix2 n f) k = ix2 n k :=
  funext fun a => Fin.ext (by match a with | ⟨0, _⟩ => rfl | ⟨1, _⟩ => rfl)

/-- Type 0's self weights are read at (0, k, f): the slice keeps block 0, the reshape drops the unit axis. -/
private theorem wself0 (n : Fin 50000) (f k : Fin 128) :
    Read.idx_main_v27 (Read.idx_main_v28 (Read.ridx_main_v29 (ix2 n f) k)) = ix3 (0 : Fin 4) k f :=
  funext fun a => Fin.ext (by
    match a with
    | ⟨0, _⟩ => rfl
    | ⟨1, _⟩ => show (k.val * 128 + f.val) / 128 % 128 = k.val; omega
    | ⟨2, _⟩ => show (k.val * 128 + f.val) % 128 = f.val; omega)

/-- Type 0's neighbour weights are read at (0, k, f). -/
private theorem wneigh0 (n : Fin 50000) (f k : Fin 128) :
    Read.idx_main_v30 (Read.idx_main_v31 (Read.ridx_main_v32 (ix2 n f) k)) = ix3 (0 : Fin 4) k f :=
  funext fun a => Fin.ext (by
    match a with
    | ⟨0, _⟩ => rfl
    | ⟨1, _⟩ => show (k.val * 128 + f.val) / 128 % 128 = k.val; omega
    | ⟨2, _⟩ => show (k.val * 128 + f.val) % 128 = f.val; omega)

/-- Type 0's bias is read at (0, f): slice, reshape, and two broadcasts along the node axis. -/
private theorem bidx0 (n : Fin 50000) (f : Fin 128) :
    Read.idx_main_v34 (Read.idx_main_v35 (Read.idx_main_v36 (Read.idx_main_v37 (ix2 n f)))) = ix2 (0 : Fin 4) f :=
  funext fun a => Fin.ext (by
    match a with
    | ⟨0, _⟩ => rfl
    | ⟨1, _⟩ => show f.val % 128 = f.val; omega)

/-- Type 0's layer output at node n, feature f. -/
theorem layer0 (n : Fin 50000) (f : Fin 128) :
    Read.val_main_v38 (F := Ideal) x0 x1 x2 x3 x4 x5 (ix2 n f)
      = Cert.Spec.layerR (X x0) (MSG x0 x1) (DST x1) (TYP x2) (WS x3) (WN x4) (BB x5) 0 n f := by
  unfold Cert.Spec.layerR X WS WN BB
  rw [Read.val_main_v38_apply, Read.val_main_v33_apply, Read.val_main_v29_apply, Read.val_main_v32_apply,
    Read.val_main_v37_apply, Read.val_main_v36_apply, Read.val_main_v35_apply, Read.val_main_v34_apply, bidx0]
  show (_ + _) + _ = _
  refine congrArg₂ (· + ·) (congrArg₂ (· + ·) (Finset.sum_congr rfl fun k _ => ?_) (Finset.sum_congr rfl fun k _ => ?_)) rfl
  · rw [lself0, Read.val_main_v28_apply, Read.val_main_v27_apply, wself0]
  · rw [lneigh0, RMean.mean0, Read.val_main_v31_apply, Read.val_main_v30_apply, wneigh0]

/-- The left operand of the self product is read at row n, column k. -/
private theorem lself1 (n : Fin 50000) (f k : Fin 128) : Read.lidx_main_v57 (ix2 n f) k = ix2 n k :=
  funext fun a => Fin.ext (by match a with | ⟨0, _⟩ => rfl | ⟨1, _⟩ => rfl)

/-- The left operand of the neighbour product is read at row n, column k. -/
private theorem lneigh1 (n : Fin 50000) (f k : Fin 128) : Read.lidx_main_v60 (ix2 n f) k = ix2 n k :=
  funext fun a => Fin.ext (by match a with | ⟨0, _⟩ => rfl | ⟨1, _⟩ => rfl)

/-- Type 1's self weights are read at (1, k, f): the slice keeps block 1, the reshape drops the unit axis. -/
private theorem wself1 (n : Fin 50000) (f k : Fin 128) :
    Read.idx_main_v55 (Read.idx_main_v56 (Read.ridx_main_v57 (ix2 n f) k)) = ix3 (1 : Fin 4) k f :=
  funext fun a => Fin.ext (by
    match a with
    | ⟨0, _⟩ => rfl
    | ⟨1, _⟩ => show (k.val * 128 + f.val) / 128 % 128 = k.val; omega
    | ⟨2, _⟩ => show (k.val * 128 + f.val) % 128 = f.val; omega)

/-- Type 1's neighbour weights are read at (1, k, f). -/
private theorem wneigh1 (n : Fin 50000) (f k : Fin 128) :
    Read.idx_main_v58 (Read.idx_main_v59 (Read.ridx_main_v60 (ix2 n f) k)) = ix3 (1 : Fin 4) k f :=
  funext fun a => Fin.ext (by
    match a with
    | ⟨0, _⟩ => rfl
    | ⟨1, _⟩ => show (k.val * 128 + f.val) / 128 % 128 = k.val; omega
    | ⟨2, _⟩ => show (k.val * 128 + f.val) % 128 = f.val; omega)

/-- Type 1's bias is read at (1, f): slice, reshape, and two broadcasts along the node axis. -/
private theorem bidx1 (n : Fin 50000) (f : Fin 128) :
    Read.idx_main_v62 (Read.idx_main_v63 (Read.idx_main_v64 (Read.idx_main_v65 (ix2 n f)))) = ix2 (1 : Fin 4) f :=
  funext fun a => Fin.ext (by
    match a with
    | ⟨0, _⟩ => rfl
    | ⟨1, _⟩ => show f.val % 128 = f.val; omega)

/-- Type 1's. -/
theorem layer1 (n : Fin 50000) (f : Fin 128) :
    Read.val_main_v66 (F := Ideal) x0 x1 x2 x3 x4 x5 (ix2 n f)
      = Cert.Spec.layerR (X x0) (MSG x0 x1) (DST x1) (TYP x2) (WS x3) (WN x4) (BB x5) 1 n f := by
  unfold Cert.Spec.layerR X WS WN BB
  rw [Read.val_main_v66_apply, Read.val_main_v61_apply, Read.val_main_v57_apply, Read.val_main_v60_apply,
    Read.val_main_v65_apply, Read.val_main_v64_apply, Read.val_main_v63_apply, Read.val_main_v62_apply, bidx1]
  show (_ + _) + _ = _
  refine congrArg₂ (· + ·) (congrArg₂ (· + ·) (Finset.sum_congr rfl fun k _ => ?_) (Finset.sum_congr rfl fun k _ => ?_)) rfl
  · rw [lself1, Read.val_main_v56_apply, Read.val_main_v55_apply, wself1]
  · rw [lneigh1, RMean.mean1, Read.val_main_v59_apply, Read.val_main_v58_apply, wneigh1]

/-- The left operand of the self product is read at row n, column k. -/
private theorem lself2 (n : Fin 50000) (f k : Fin 128) : Read.lidx_main_v85 (ix2 n f) k = ix2 n k :=
  funext fun a => Fin.ext (by match a with | ⟨0, _⟩ => rfl | ⟨1, _⟩ => rfl)

/-- The left operand of the neighbour product is read at row n, column k. -/
private theorem lneigh2 (n : Fin 50000) (f k : Fin 128) : Read.lidx_main_v88 (ix2 n f) k = ix2 n k :=
  funext fun a => Fin.ext (by match a with | ⟨0, _⟩ => rfl | ⟨1, _⟩ => rfl)

/-- Type 2's self weights are read at (2, k, f): the slice keeps block 2, the reshape drops the unit axis. -/
private theorem wself2 (n : Fin 50000) (f k : Fin 128) :
    Read.idx_main_v83 (Read.idx_main_v84 (Read.ridx_main_v85 (ix2 n f) k)) = ix3 (2 : Fin 4) k f :=
  funext fun a => Fin.ext (by
    match a with
    | ⟨0, _⟩ => rfl
    | ⟨1, _⟩ => show (k.val * 128 + f.val) / 128 % 128 = k.val; omega
    | ⟨2, _⟩ => show (k.val * 128 + f.val) % 128 = f.val; omega)

/-- Type 2's neighbour weights are read at (2, k, f). -/
private theorem wneigh2 (n : Fin 50000) (f k : Fin 128) :
    Read.idx_main_v86 (Read.idx_main_v87 (Read.ridx_main_v88 (ix2 n f) k)) = ix3 (2 : Fin 4) k f :=
  funext fun a => Fin.ext (by
    match a with
    | ⟨0, _⟩ => rfl
    | ⟨1, _⟩ => show (k.val * 128 + f.val) / 128 % 128 = k.val; omega
    | ⟨2, _⟩ => show (k.val * 128 + f.val) % 128 = f.val; omega)

/-- Type 2's bias is read at (2, f): slice, reshape, and two broadcasts along the node axis. -/
private theorem bidx2 (n : Fin 50000) (f : Fin 128) :
    Read.idx_main_v90 (Read.idx_main_v91 (Read.idx_main_v92 (Read.idx_main_v93 (ix2 n f)))) = ix2 (2 : Fin 4) f :=
  funext fun a => Fin.ext (by
    match a with
    | ⟨0, _⟩ => rfl
    | ⟨1, _⟩ => show f.val % 128 = f.val; omega)

/-- Type 2's. -/
theorem layer2 (n : Fin 50000) (f : Fin 128) :
    Read.val_main_v94 (F := Ideal) x0 x1 x2 x3 x4 x5 (ix2 n f)
      = Cert.Spec.layerR (X x0) (MSG x0 x1) (DST x1) (TYP x2) (WS x3) (WN x4) (BB x5) 2 n f := by
  unfold Cert.Spec.layerR X WS WN BB
  rw [Read.val_main_v94_apply, Read.val_main_v89_apply, Read.val_main_v85_apply, Read.val_main_v88_apply,
    Read.val_main_v93_apply, Read.val_main_v92_apply, Read.val_main_v91_apply, Read.val_main_v90_apply, bidx2]
  show (_ + _) + _ = _
  refine congrArg₂ (· + ·) (congrArg₂ (· + ·) (Finset.sum_congr rfl fun k _ => ?_) (Finset.sum_congr rfl fun k _ => ?_)) rfl
  · rw [lself2, Read.val_main_v84_apply, Read.val_main_v83_apply, wself2]
  · rw [lneigh2, RMean.mean2, Read.val_main_v87_apply, Read.val_main_v86_apply, wneigh2]

/-- The left operand of the self product is read at row n, column k. -/
private theorem lself3 (n : Fin 50000) (f k : Fin 128) : Read.lidx_main_v113 (ix2 n f) k = ix2 n k :=
  funext fun a => Fin.ext (by match a with | ⟨0, _⟩ => rfl | ⟨1, _⟩ => rfl)

/-- The left operand of the neighbour product is read at row n, column k. -/
private theorem lneigh3 (n : Fin 50000) (f k : Fin 128) : Read.lidx_main_v116 (ix2 n f) k = ix2 n k :=
  funext fun a => Fin.ext (by match a with | ⟨0, _⟩ => rfl | ⟨1, _⟩ => rfl)

/-- Type 3's self weights are read at (3, k, f): the slice keeps block 3, the reshape drops the unit axis. -/
private theorem wself3 (n : Fin 50000) (f k : Fin 128) :
    Read.idx_main_v111 (Read.idx_main_v112 (Read.ridx_main_v113 (ix2 n f) k)) = ix3 (3 : Fin 4) k f :=
  funext fun a => Fin.ext (by
    match a with
    | ⟨0, _⟩ => rfl
    | ⟨1, _⟩ => show (k.val * 128 + f.val) / 128 % 128 = k.val; omega
    | ⟨2, _⟩ => show (k.val * 128 + f.val) % 128 = f.val; omega)

/-- Type 3's neighbour weights are read at (3, k, f). -/
private theorem wneigh3 (n : Fin 50000) (f k : Fin 128) :
    Read.idx_main_v114 (Read.idx_main_v115 (Read.ridx_main_v116 (ix2 n f) k)) = ix3 (3 : Fin 4) k f :=
  funext fun a => Fin.ext (by
    match a with
    | ⟨0, _⟩ => rfl
    | ⟨1, _⟩ => show (k.val * 128 + f.val) / 128 % 128 = k.val; omega
    | ⟨2, _⟩ => show (k.val * 128 + f.val) % 128 = f.val; omega)

/-- Type 3's bias is read at (3, f): slice, reshape, and two broadcasts along the node axis. -/
private theorem bidx3 (n : Fin 50000) (f : Fin 128) :
    Read.idx_main_v118 (Read.idx_main_v119 (Read.idx_main_v120 (Read.idx_main_v121 (ix2 n f)))) = ix2 (3 : Fin 4) f :=
  funext fun a => Fin.ext (by
    match a with
    | ⟨0, _⟩ => rfl
    | ⟨1, _⟩ => show f.val % 128 = f.val; omega)

/-- Type 3's. -/
theorem layer3 (n : Fin 50000) (f : Fin 128) :
    Read.val_main_v122 (F := Ideal) x0 x1 x2 x3 x4 x5 (ix2 n f)
      = Cert.Spec.layerR (X x0) (MSG x0 x1) (DST x1) (TYP x2) (WS x3) (WN x4) (BB x5) 3 n f := by
  unfold Cert.Spec.layerR X WS WN BB
  rw [Read.val_main_v122_apply, Read.val_main_v117_apply, Read.val_main_v113_apply, Read.val_main_v116_apply,
    Read.val_main_v121_apply, Read.val_main_v120_apply, Read.val_main_v119_apply, Read.val_main_v118_apply, bidx3]
  show (_ + _) + _ = _
  refine congrArg₂ (· + ·) (congrArg₂ (· + ·) (Finset.sum_congr rfl fun k _ => ?_) (Finset.sum_congr rfl fun k _ => ?_)) rfl
  · rw [lself3, Read.val_main_v112_apply, Read.val_main_v111_apply, wself3]
  · rw [lneigh3, RMean.mean3, Read.val_main_v115_apply, Read.val_main_v114_apply, wneigh3]

end Cert.ReferenceIdeal.RLayer

end
-- ==== Proof.RFinal.lean ====
/- The idealized reference's result is the reference arrangement of Proof/Spec.lean, element by element: the four
   per-type layer outputs (Proof/RLayer.lean) stacked, summed over the type axis and divided by 4. -/
import proofs.«427738_j26104811225143_1_alg».proof.Proof.RLayer
import proofs.«427738_j26104811225143_1_alg».proof.Proof.Consts
import Idealize.ShloMosaic.Lib.Pipeline.Value
import Idealize.ShloMosaic.PureOps.Ideal.Laws

noncomputable section

namespace Cert.ReferenceIdeal.RFinal

open Cert.ReferenceIdeal Cert.ReferenceIdeal.Gen Cert.ReferenceIdeal.RArgs Idealize.ShloMosaic Idealize.ShloMosaic.TcCoe Idealize.SL.Sem Idealize.ShloMosaic.ValueIdx

variable (x0 : FVec Ideal S50000x128 .f32) (x1 : IVec S2x800000 32) (x2 : IVec S800000 32)
  (x3 x4 : FVec Ideal S4x128x128 .f32) (x5 : FVec Ideal S4x128 .f32)

/-- Slab 0 of the stacked array is type 0's layer output. -/
theorem slab0 (n : Fin 50000) (f : Fin 128) :
    Read.val_main_v127 (F := Ideal) x0 x1 x2 x3 x4 x5 (ix3 (0 : Fin 4) n f)
      = Read.val_main_v38 (F := Ideal) x0 x1 x2 x3 x4 x5 (ix2 n f) := by
  unfold Read.val_main_v127
  refine (concatenate_apply_piece (0 : Fin 3) _ _ (ix3 (0 : Fin 4) n f) 0 ?hk S1x50000x128
    (Read.val_main_v123 (F := Ideal) x0 x1 x2 x3 x4 x5) ?hxk rfl 0 ?hpre
    (ix3 (0 : Fin 1) n f) ?hi ?ha).trans ?_
  case hk => exact (by decide : (0 : Nat) < 4)
  case hxk => rfl
  case hpre => rfl
  case hi =>
    intro b hb
    match b with
    | ⟨0, _⟩ => exact absurd rfl hb
    | ⟨1, _⟩ => rfl
    | ⟨2, _⟩ => rfl
  case ha => rfl
  · rw [Read.val_main_v123_apply]
    exact congrArg _ (funext fun a => Fin.ext (by match a with | ⟨0, _⟩ => rfl | ⟨1, _⟩ => rfl))

/-- Slab 1 of the stacked array is type 1's layer output. -/
theorem slab1 (n : Fin 50000) (f : Fin 128) :
    Read.val_main_v127 (F := Ideal) x0 x1 x2 x3 x4 x5 (ix3 (1 : Fin 4) n f)
      = Read.val_main_v66 (F := Ideal) x0 x1 x2 x3 x4 x5 (ix2 n f) := by
  unfold Read.val_main_v127
  refine (concatenate_apply_piece (0 : Fin 3) _ _ (ix3 (1 : Fin 4) n f) 1 ?hk S1x50000x128
    (Read.val_main_v124 (F := Ideal) x0 x1 x2 x3 x4 x5) ?hxk rfl 1 ?hpre
    (ix3 (0 : Fin 1) n f) ?hi ?ha).trans ?_
  case hk => exact (by decide : (1 : Nat) < 4)
  case hxk => rfl
  case hpre => rfl
  case hi =>
    intro b hb
    match b with
    | ⟨0, _⟩ => exact absurd rfl hb
    | ⟨1, _⟩ => rfl
    | ⟨2, _⟩ => rfl
  case ha => rfl
  · rw [Read.val_main_v124_apply]
    exact congrArg _ (funext fun a => Fin.ext (by match a with | ⟨0, _⟩ => rfl | ⟨1, _⟩ => rfl))

/-- Slab 2 of the stacked array is type 2's layer output. -/
theorem slab2 (n : Fin 50000) (f : Fin 128) :
    Read.val_main_v127 (F := Ideal) x0 x1 x2 x3 x4 x5 (ix3 (2 : Fin 4) n f)
      = Read.val_main_v94 (F := Ideal) x0 x1 x2 x3 x4 x5 (ix2 n f) := by
  unfold Read.val_main_v127
  refine (concatenate_apply_piece (0 : Fin 3) _ _ (ix3 (2 : Fin 4) n f) 2 ?hk S1x50000x128
    (Read.val_main_v125 (F := Ideal) x0 x1 x2 x3 x4 x5) ?hxk rfl 2 ?hpre
    (ix3 (0 : Fin 1) n f) ?hi ?ha).trans ?_
  case hk => exact (by decide : (2 : Nat) < 4)
  case hxk => rfl
  case hpre => rfl
  case hi =>
    intro b hb
    match b with
    | ⟨0, _⟩ => exact absurd rfl hb
    | ⟨1, _⟩ => rfl
    | ⟨2, _⟩ => rfl
  case ha => rfl
  · rw [Read.val_main_v125_apply]
    exact congrArg _ (funext fun a => Fin.ext (by match a with | ⟨0, _⟩ => rfl | ⟨1, _⟩ => rfl))

/-- Slab 3 of the stacked array is type 3's layer output. -/
theorem slab3 (n : Fin 50000) (f : Fin 128) :
    Read.val_main_v127 (F := Ideal) x0 x1 x2 x3 x4 x5 (ix3 (3 : Fin 4) n f)
      = Read.val_main_v122 (F := Ideal) x0 x1 x2 x3 x4 x5 (ix2 n f) := by
  unfold Read.val_main_v127
  refine (concatenate_apply_piece (0 : Fin 3) _ _ (ix3 (3 : Fin 4) n f) 3 ?hk S1x50000x128
    (Read.val_main_v126 (F := Ideal) x0 x1 x2 x3 x4 x5) ?hxk rfl 3 ?hpre
    (ix3 (0 : Fin 1) n f) ?hi ?ha).trans ?_
  case hk => exact (by decide : (3 : Nat) < 4)
  case hxk => rfl
  case hpre => rfl
  case hi =>
    intro b hb
    match b with
    | ⟨0, _⟩ => exact absurd rfl hb
    | ⟨1, _⟩ => rfl
    | ⟨2, _⟩ => rfl
  case ha => rfl
  · rw [Read.val_main_v126_apply]
    exact congrArg _ (funext fun a => Fin.ext (by match a with | ⟨0, _⟩ => rfl | ⟨1, _⟩ => rfl))

/-- The reference's result, element by element, as the reference arrangement. -/
theorem final (n : Fin 50000) (f : Fin 128) :
    Read.val_main_v130 (F := Ideal) x0 x1 x2 x3 x4 x5 (ix2 n f)
      = Cert.Spec.refOut (X x0) (MSG x0 x1) (DST x1) (TYP x2) (WS x3) (WN x4) (BB x5) n f := by
  have hidx : ∀ k : Fin 4, Read.idx_main_v128 (ix2 n f) k = ix3 k n f := fun k =>
    funext fun a => Fin.ext (by match a with | ⟨0, _⟩ => rfl | ⟨1, _⟩ => rfl | ⟨2, _⟩ => rfl)
  rw [Read.val_main_v130_apply, Read.val_main_v128_apply, Read.val_main_v129_apply, Read.val_main_cst_17_apply,
    Read.val_main_cst_16_apply]
  simp only [hidx, Fin.sum_univ_four, slab0, slab1, slab2, slab3, RLayer.layer0, RLayer.layer1, RLayer.layer2, RLayer.layer3]
  unfold Cert.Spec.refOut
  rw [Fin.sum_univ_four]
  show Ideal.div (Ideal.ofBits .f32 0x00000000#32 + _) (Ideal.ofBits .f32 0x40800000#32) = _
  rw [Ideal.ofBits_zero_f32, zero_add, Cert.Consts.ofBits_four]

end Cert.ReferenceIdeal.RFinal

end
-- ==== Proof.PreDecode.lean ====
/- The precondition decoded: where it holds (the printed predicate is the all-ones bit), every float input is a
   real number, every destination word (row 1 of the edge index array) is below 50000 and every type word below 4,
   both read unsigned — the signed tests `0 ≤ w` and `w < bound` together say exactly that. -/
import proofs.«427738_j26104811225143_1_alg».proof.Pre_finite_inputs
import proofs.«427738_j26104811225143_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Cert.Pre_finite_inputs Idealize.ShloMosaic Idealize.ShloMosaic.ValueIdx

variable [Cert.Pre_finite_inputs.Facts]

/-- The scalar shape has one index. -/
private instance subsingleton_scalar_idx : Subsingleton S_.Idx := ⟨fun a b => funext fun d => d.elim0⟩

/-- The f32 pattern 0x7F800000 denotes +∞. -/
private theorem inf_bits : Ideal.ofBits .f32 0x7F800000#32 = (⊤ : EReal) := by simp [Ideal.ofBits, Ideal.ieee]

/-- |x| < +∞ (the test max x (-x) < ⊤ on the extended reals) says x is a real: at ⊥ and at ⊤, |x| = ⊤. -/
private theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : BitVec.ofBool (decide (max x (-x) < Ideal.ofBits .f32 0x7F800000#32)) = 1#1 := h
  rw [inf_bits, StableHlo.Predicate.ofBool_eq_one_iff, decide_eq_true_eq] at h'
  induction x using EReal.rec with
  | bot => exact absurd h' (by simp)
  | coe r => exact ⟨r, rfl⟩
  | top => exact absurd h' (by simp)

/-- A word with 0 ≤ w and w < n signed (n below 2³¹) is below n unsigned. -/
private theorem toNat_lt_of_tests (w : BitVec 32) (n : Nat) (hn : n < 2 ^ 31)
    (h : IntOp.andi (IntOp.cmpi .sge w 0#32) (IntOp.cmpi .slt w (BitVec.ofNat 32 n)) = 1#1) : w.toNat < n := by
  obtain ⟨h0, h1⟩ := IntOp.andi_eq_one.1 h
  have hw : w.toNat < 2 ^ 31 := by
    unfold IntOp.cmpi at h0
    rw [StableHlo.Predicate.ofBool_eq_one_iff] at h0
    simp only [BitVec.sle, decide_eq_true_eq, BitVec.toInt_eq_msb_cond] at h0
    have := w.isLt
    by_contra hc
    have hm : w.msb = true := by
      rw [← Bool.not_eq_false, BitVec.msb_eq_false_iff_two_mul_lt]; omega
    simp [hm] at h0
    omega
  have hn' : (BitVec.ofNat 32 n).toNat = n := by simp [BitVec.toNat_ofNat]; omega
  have := (StableHlo.Predicate.slt_iff_toNat hw (by omega)).1 h1
  omega

/-- Row 1 of the [2 × 800000] array, sliced out and flattened, read at e is the array at (1, e). -/
private theorem dst_read (a1 : IVec S2x800000 32) (e : Fin 800000) :
    shapeCast S800000 (extractStridedSlice S1x800000 ![1, 0] a1 Facts.slices_S2x800000_S1x800000_1_0)
      Facts.shapeCasts_S1x800000_S800000 (ix1 e) = a1 (ix2 (1 : Fin 2) e) := by
  unfold shapeCast extractStridedSlice
  have hk : Shape.reshapeEquiv Facts.shapeCasts_S1x800000_S800000 (ix1 e) = (ix2 (0 : Fin 1) e : S1x800000.Idx) :=
    Shape.reshapeEquiv_eq_of_rowMajor _ (by
      rw [Shape.rowMajor_val_two, Shape.rowMajor_val_one]; show 0 * 800000 + e.val = e.val; omega)
  rw [hk]
  refine congrArg a1 (funext fun a => ?_)
  match a with
  | ⟨0, _⟩ => rfl
  | ⟨1, _⟩ => exact Fin.ext (by show 0 + e.val = e.val; omega)

/-- What the precondition says of the six arguments. -/
theorem decode (a0 : FVec Ideal S50000x128 .f32) (a1 : IVec S2x800000 32) (a2 : IVec S800000 32)
    (a3 a4 : FVec Ideal S4x128x128 .f32) (a5 : FVec Ideal S4x128 .f32)
    (h : Cert.Pre_finite_inputs.fn (F := Ideal) a0 a1 a2 a3 a4 a5 = (fun _ => 1#1)) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal))
      ∧ (∀ e : Fin 800000, (a1 (ix2 (1 : Fin 2) e)).toNat < 50000) ∧ (∀ e : Fin 800000, (a2 (ix1 e)).toNat < 4) := by
  have e := congrFun h ix0
  unfold Cert.Pre_finite_inputs.fn Cert.Pre_finite_inputs.fn_part1 Cert.Pre_finite_inputs.fn_part2 at e
  dsimp only at e
  obtain ⟨e, e2⟩ := IntOp.andi_eq_one.1 e
  obtain ⟨e, e1⟩ := IntOp.andi_eq_one.1 e
  obtain ⟨e, e5⟩ := IntOp.andi_eq_one.1 e
  obtain ⟨e, e4⟩ := IntOp.andi_eq_one.1 e
  obtain ⟨e0, e3⟩ := IntOp.andi_eq_one.1 e
  refine ⟨fun i => real_of_abs_lt_inf _ (Host.reduce_andi_all _ _ _ _ ix0 e0 i),
    fun i => real_of_abs_lt_inf _ (Host.reduce_andi_all _ _ _ _ ix0 e3 i),
    fun i => real_of_abs_lt_inf _ (Host.reduce_andi_all _ _ _ _ ix0 e4 i),
    fun i => real_of_abs_lt_inf _ (Host.reduce_andi_all _ _ _ _ ix0 e5 i), fun j => ?_, fun j => ?_⟩
  · have t := Host.reduce_andi_all _ _ _ _ ix0 e1 (ix1 j)
    rw [← dst_read a1 j]
    exact toNat_lt_of_tests _ 50000 (by norm_num) t
  · exact toNat_lt_of_tests _ 4 (by norm_num) (Host.reduce_andi_all _ _ _ _ ix0 e2 (ix1 j))

end Cert.PreDecode

end
-- ==== Proof.Bridge.lean ====
/- The two programs gather the same source rows: the kernel's host code and the reference apply the same
   operations to the feature array and the edge index array (row 0 of the edge indices, a negative index wrapped
   once by the row count, then the row gather), so the gathered arrays are one function of those two arguments; and
   each gathered element is an element of the feature array, so it is a real number when the features are. -/
import proofs.«427738_j26104811225143_1_alg».proof.Proof.KArgs
import proofs.«427738_j26104811225143_1_alg».proof.Proof.RArgs
import Idealize.ShloMosaic.Lib.StableHlo.Run

noncomputable section

namespace Cert.Bridge

open Idealize.ShloMosaic Idealize.ShloMosaic.TcCoe Idealize.SL.Sem Idealize.ShloMosaic.ValueIdx Idealize.ShloMosaic.StableHlo

/-- The kernel's gathered array, as the region finds it, is the reference's gather stage of the same arguments. -/
theorem gmsg_eq (m : (ℓ : Loc Cert.KernelIdeal.nD Cert.KernelIdeal.τ Cert.KernelIdeal.sig) → Buf (Elt Ideal) ℓ) (c : Dev Cert.KernelIdeal.nD) :
    Cert.KernelIdeal.KArgs.gmsg m c
      = Cert.ReferenceIdeal.Read.val_main_v10 (F := Ideal) (Cert.KernelIdeal.KArgs.a0 m c) (Cert.KernelIdeal.KArgs.a1 m c) := by
  show Cert.KernelIdeal.Gen.V m c Cert.KernelIdeal.main_v10 = _
  dsimp only [Cert.KernelIdeal.Gen.V, Cert.KernelIdeal.Gen.hostOps0]
  after_results
  rfl

/-- A gathered element is an element of the operand: real when every operand element is. -/
theorem msg_real (x0 : FVec Ideal Cert.ReferenceIdeal.S50000x128 .f32) (x1 : IVec Cert.ReferenceIdeal.S2x800000 32)
    (hx : ∀ i, ∃ r : ℝ, x0 i = (r : EReal)) (i : Cert.ReferenceIdeal.S800000x128.Idx) :
    ∃ r : ℝ, Cert.ReferenceIdeal.Read.val_main_v10 (F := Ideal) x0 x1 i = (r : EReal) := by
  unfold Cert.ReferenceIdeal.Read.val_main_v10 Host.gather
  exact hx _

end Cert.Bridge

end
-- ==== Proof.lean ====
/- Four-type graph layer (per-type mean of gathered neighbour rows, two 128×128 products and a bias per type, then
   the mean over the types) as one bucketed segment sum and ONE 640-column product, against the per-type reference.

   Frames: the kernel's two frames are the generated ones; the reference's is its generated run with the result dropped.
   The idealization rewrote nothing, so the preservation claim is trivial.
   Value: the kernel's result array is the kernel arrangement of Proof/Spec.lean (Proof/KFinal.lean), the reference's
   the reference arrangement (Proof/RFinal.lean); the two arrangements agree where every float is finite, every
   destination word is a node and every type word one of the four types (Proof/Algebra.lean), which is what the
   precondition says (Proof/PreDecode.lean); both gather the same source rows (Proof/Bridge.lean). -/
import proofs.«427738_j26104811225143_1_alg».proof.Defs
import proofs.«427738_j26104811225143_1_alg».proof.Proof.Gen.Kernel
import proofs.«427738_j26104811225143_1_alg».proof.Proof.Gen.Kernel.Skeleton
import proofs.«427738_j26104811225143_1_alg».proof.Proof.Gen.Kernel.Launch
import proofs.«427738_j26104811225143_1_alg».proof.Proof.Gen.Kernel.Points
import proofs.«427738_j26104811225143_1_alg».proof.Proof.Gen.Kernel.Frame
import proofs.«427738_j26104811225143_1_alg».proof.Proof.Gen.KernelIdeal
import proofs.«427738_j26104811225143_1_alg».proof.Proof.Gen.KernelIdeal.Skeleton
import proofs.«427738_j26104811225143_1_alg».proof.Proof.Gen.KernelIdeal.Launch
import proofs.«427738_j26104811225143_1_alg».proof.Proof.Gen.KernelIdeal.Points
import proofs.«427738_j26104811225143_1_alg».proof.Proof.Gen.KernelIdeal.Frame
import proofs.«427738_j26104811225143_1_alg».proof.Proof.Gen.ReferenceIdeal
import proofs.«427738_j26104811225143_1_alg».proof.Proof.Gen.Pre_finite_inputs
import proofs.«427738_j26104811225143_1_alg».proof.Proof.Gen.KernelIdeal.Value
import proofs.«427738_j26104811225143_1_alg».proof.Proof.Gen.ReferenceIdeal.Run
import proofs.«427738_j26104811225143_1_alg».proof.Proof.Gen.ReferenceIdeal.Read
import proofs.«427738_j26104811225143_1_alg».proof.Proof.KFinal
import proofs.«427738_j26104811225143_1_alg».proof.Proof.RFinal
import proofs.«427738_j26104811225143_1_alg».proof.Proof.PreDecode
import proofs.«427738_j26104811225143_1_alg».proof.Proof.Bridge
import Idealize.ShloMosaic.Adequacy
import Idealize.ShloMosaic.Init

noncomputable section

namespace Cert.Proof

open Idealize.ShloMosaic Idealize.SL.Sem Idealize.ShloMosaic.TcCoe Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The common value of the two results on core `c`, from the kernel's memory: the kernel arrangement. -/
def G (m : (ℓ : Loc Cert.KernelIdeal.nD Cert.KernelIdeal.τ Cert.KernelIdeal.sig) → Buf (Elt Ideal) ℓ) (c : Dev Cert.KernelIdeal.nD) :
    FVec Ideal Cert.KernelIdeal.S50000x128 .f32 := fun i =>
  Cert.Spec.kerOut (Cert.KernelIdeal.KArgs.X m c) (Cert.KernelIdeal.KArgs.MSG m c) (Cert.KernelIdeal.KArgs.DST m c)
    (Cert.KernelIdeal.KArgs.TYP m c) (Cert.KernelIdeal.KArgs.WS m c) (Cert.KernelIdeal.KArgs.WN m c) (Cert.KernelIdeal.KArgs.BB m c) (i 0) (i 1)

/-- The kernel's run ends with its result array at `G`. -/
theorem kernel_run (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 3 Cert.KernelIdeal.cfg0.N = G m c := by
  funext i
  obtain ⟨n, f, rfl⟩ : ∃ (n : Fin 50000) (f : Fin 128), i = ix2 n f := ⟨i 0, i 1, eq_ix2 i⟩
  exact Cert.KernelIdeal.KFinal.final m c n f

/-- The reference's result term, over arguments that agree with the kernel's and satisfy the precondition, is `G`. -/
theorem reference_value (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (Cert.KernelIdeal.KArgs.a0 m c) (Cert.KernelIdeal.KArgs.a1 m c) (Cert.KernelIdeal.KArgs.a2 m c)
      (Cert.KernelIdeal.KArgs.a3 m c) (Cert.KernelIdeal.KArgs.a4 m c) (Cert.KernelIdeal.KArgs.a5 m c) = (fun _ => 1#1)) :
    Cert.ReferenceIdeal.Read.val_main_v130 (F := Ideal) (Cert.KernelIdeal.KArgs.a0 m c) (Cert.KernelIdeal.KArgs.a1 m c) (Cert.KernelIdeal.KArgs.a2 m c)
      (Cert.KernelIdeal.KArgs.a3 m c) (Cert.KernelIdeal.KArgs.a4 m c) (Cert.KernelIdeal.KArgs.a5 m c) = G m c := by
  obtain ⟨h0, h3, h4, h5, hd, ht⟩ := Cert.PreDecode.decode _ _ _ _ _ _ hpre
  funext i
  obtain ⟨n, f, rfl⟩ : ∃ (n : Fin 50000) (f : Fin 128), i = ix2 n f := ⟨i 0, i 1, eq_ix2 i⟩
  rw [Cert.ReferenceIdeal.RFinal.final]
  have hmsg : Cert.ReferenceIdeal.RArgs.MSG (Cert.KernelIdeal.KArgs.a0 m c) (Cert.KernelIdeal.KArgs.a1 m c) = Cert.KernelIdeal.KArgs.MSG m c := by
    funext e k
    show Cert.ReferenceIdeal.Read.val_main_v10 (F := Ideal) _ _ _ = Cert.KernelIdeal.KArgs.gmsg m c _
    rw [Cert.Bridge.gmsg_eq]
  rw [hmsg]
  exact (Cert.Spec.kerOut_eq_refOut (Cert.KernelIdeal.KArgs.X m c) (Cert.KernelIdeal.KArgs.MSG m c) (Cert.KernelIdeal.KArgs.DST m c)
    (Cert.KernelIdeal.KArgs.TYP m c) (Cert.KernelIdeal.KArgs.WS m c) (Cert.KernelIdeal.KArgs.WN m c) (Cert.KernelIdeal.KArgs.BB m c)
    (fun n k => h0 _) (fun e k => by rw [← hmsg]; exact Cert.Bridge.msg_real _ _ h0 _) (fun t k f => h3 _) (fun t k f => h4 _) (fun t f => h5 _)
    hd ht n f).symm

theorem algebraic : Cert.algebraic_KernelIdeal_ReferenceIdeal := by
  intro m ρ m' ρ' hpre hagree
  refine ⟨fun c => G m c, ?_, ?_⟩
  · exact (θ_run Cert.KernelIdeal.defs _ _).mono (fun r h c => ⟨(h c).1.trans (kernel_run m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v130_eq, (hagree c).1, (hagree c).2.1, (hagree c).2.2.1, (hagree c).2.2.2.1,
      (hagree c).2.2.2.2.1, (hagree c).2.2.2.2.2]
    exact reference_value m c (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
